-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x512x768 : Shape := ⟨4, ![4, 4, 512, 768]⟩
abbrev S4x4x1x1x512 : Shape := ⟨5, ![4, 4, 1, 1, 512]⟩
abbrev S4x768x768 : Shape := ⟨3, ![4, 768, 768]⟩
abbrev S4x1x768 : Shape := ⟨3, ![4, 1, 768]⟩
abbrev S_ : Shape := ⟨0, ![]⟩

class Facts : Prop where
  bcast_S_S4x4x512x768 : S_.BroadcastsInDim S4x4x512x768 (![] : Fin 0 → Fin S4x4x512x768.rank)
  reducesTo_S4x4x512x768_S_d0_1_2_3 : S4x4x512x768.ReducesTo [0, 1, 2, 3] S_
  h_S_ : 0 < S_.numel
  bcast_S_S4x4x1x1x512 : S_.BroadcastsInDim S4x4x1x1x512 (![] : Fin 0 → Fin S4x4x1x1x512.rank)
  reducesTo_S4x4x1x1x512_S_d0_1_2_3_4 : S4x4x1x1x512.ReducesTo [0, 1, 2, 3, 4] S_
  bcast_S_S4x768x768 : S_.BroadcastsInDim S4x768x768 (![] : Fin 0 → Fin S4x768x768.rank)
  reducesTo_S4x768x768_S_d0_1_2 : S4x768x768.ReducesTo [0, 1, 2] S_
  bcast_S_S4x1x768 : S_.BroadcastsInDim S4x1x768 (![] : Fin 0 → Fin S4x1x768.rank)
  reducesTo_S4x1x768_S_d0_1_2 : S4x1x768.ReducesTo [0, 1, 2] S_

variable [Facts]

def fn_part2 {F : FTy → Type} [FloatOps F] (main_arg7 : FVec F S4x1x768 .f32) (main_v33 : IVec S_ 1) : IVec S_ 1 :=
  let main_v34 : FVec F S4x1x768 .f32 := Host.absf main_arg7
  let main_cst_12 : FVec F S_ .f32 := constant S_ .f32 0x7F800000#32
  let main_v35 : FVec F S4x1x768 .f32 := broadcastInDim S4x1x768 ![] bcast_S_S4x1x768 main_cst_12
  let main_v36 : IVec S4x1x768 1 := cmpf .olt main_v34 main_v35
  let main_c_13 : IVec S_ 1 := constantI S_ 1 1#1
  let main_v37 : IVec S_ 1 := (fun x v => Host.reduce IntOp.andi x v reducesTo_S4x1x768_S_d0_1_2 h_S_) main_v36 main_c_13
  let main_v38 : IVec S_ 1 := andi main_v33 main_v37
  main_v38

def fn_part1 {F : FTy → Type} [FloatOps F] (main_arg4 : FVec F S4x768x768 .f32) (main_arg5 : FVec F S4x1x768 .f32) (main_arg6 : FVec F S4x768x768 .f32) (main_arg7 : FVec F S4x1x768 .f32) (main_v13 : IVec S_ 1) (main_v16 : IVec S4x1x768 1) : IVec S_ 1 :=
  let main_c_5 : IVec S_ 1 := constantI S_ 1 1#1
  let main_v17 : IVec S_ 1 := (fun x v => Host.reduce IntOp.andi x v reducesTo_S4x1x768_S_d0_1_2 h_S_) main_v16 main_c_5
  let main_v18 : IVec S_ 1 := andi main_v13 main_v17
  let main_v19 : FVec F S4x768x768 .f32 := Host.absf main_arg4
  let main_cst_6 : FVec F S_ .f32 := constant S_ .f32 0x7F800000#32
  let main_v20 : FVec F S4x768x768 .f32 := broadcastInDim S4x768x768 ![] bcast_S_S4x768x768 main_cst_6
  let main_v21 : IVec S4x768x768 1 := cmpf .olt main_v19 main_v20
  let main_c_7 : IVec S_ 1 := constantI S_ 1 1#1
  let main_v22 : IVec S_ 1 := (fun x v => Host.reduce IntOp.andi x v reducesTo_S4x768x768_S_d0_1_2 h_S_) main_v21 main_c_7
  let main_v23 : IVec S_ 1 := andi main_v18 main_v22
  let main_v24 : FVec F S4x1x768 .f32 := Host.absf main_arg5
  let main_cst_8 : FVec F S_ .f32 := constant S_ .f32 0x7F800000#32
  let main_v25 : FVec F S4x1x768 .f32 := broadcastInDim S4x1x768 ![] bcast_S_S4x1x768 main_cst_8
  let main_v26 : IVec S4x1x768 1 := cmpf .olt main_v24 main_v25
  let main_c_9 : IVec S_ 1 := constantI S_ 1 1#1
  let main_v27 : IVec S_ 1 := (fun x v => Host.reduce IntOp.andi x v reducesTo_S4x1x768_S_d0_1_2 h_S_) main_v26 main_c_9
  let main_v28 : IVec S_ 1 := andi main_v23 main_v27
  let main_v29 : FVec F S4x768x768 .f32 := Host.absf main_arg6
  let main_cst_10 : FVec F S_ .f32 := constant S_ .f32 0x7F800000#32
  let main_v30 : FVec F S4x768x768 .f32 := broadcastInDim S4x768x768 ![] bcast_S_S4x768x768 main_cst_10
  let main_v31 : IVec S4x768x768 1 := cmpf .olt main_v29 main_v30
  let main_c_11 : IVec S_ 1 := constantI S_ 1 1#1
  let main_v32 : IVec S_ 1 := (fun x v => Host.reduce IntOp.andi x v reducesTo_S4x768x768_S_d0_1_2 h_S_) main_v31 main_c_11
  let main_v33 : IVec S_ 1 := andi main_v28 main_v32
  fn_part2 (F := F) main_arg7 main_v33

def fn {F : FTy → Type} [FloatOps F] (main_arg0 : FVec F S4x4x512x768 .f32) (main_arg1 : FVec F S4x4x1x1x512 .f32) (main_arg2 : FVec F S4x768x768 .f32) (main_arg3 : FVec F S4x1x768 .f32) (main_arg4 : FVec F S4x768x768 .f32) (main_arg5 : FVec F S4x1x768 .f32) (main_arg6 : FVec F S4x768x768 .f32) (main_arg7 : FVec F S4x1x768 .f32) : IVec S_ 1 :=
  let main_v0 : FVec F S4x4x512x768 .f32 := Host.absf main_arg0
  let main_cst : FVec F S_ .f32 := constant S_ .f32 0x7F800000#32
  let main_v1 : FVec F S4x4x512x768 .f32 := broadcastInDim S4x4x512x768 ![] bcast_S_S4x4x512x768 main_cst
  let main_v2 : IVec S4x4x512x768 1 := cmpf .olt main_v0 main_v1
  let main_c : IVec S_ 1 := constantI S_ 1 1#1
  let main_v3 : IVec S_ 1 := (fun x v => Host.reduce IntOp.andi x v reducesTo_S4x4x512x768_S_d0_1_2_3 h_S_) main_v2 main_c
  let main_v4 : FVec F S4x4x1x1x512 .f32 := Host.absf main_arg1
  let main_cst_0 : FVec F S_ .f32 := constant S_ .f32 0x7F800000#32
  let main_v5 : FVec F S4x4x1x1x512 .f32 := broadcastInDim S4x4x1x1x512 ![] bcast_S_S4x4x1x1x512 main_cst_0
  let main_v6 : IVec S4x4x1x1x512 1 := cmpf .olt main_v4 main_v5
  let main_c_1 : IVec S_ 1 := constantI S_ 1 1#1
  let main_v7 : IVec S_ 1 := (fun x v => Host.reduce IntOp.andi x v reducesTo_S4x4x1x1x512_S_d0_1_2_3_4 h_S_) main_v6 main_c_1
  let main_v8 : IVec S_ 1 := andi main_v3 main_v7
  let main_v9 : FVec F S4x768x768 .f32 := Host.absf main_arg2
  let main_cst_2 : FVec F S_ .f32 := constant S_ .f32 0x7F800000#32
  let main_v10 : FVec F S4x768x768 .f32 := broadcastInDim S4x768x768 ![] bcast_S_S4x768x768 main_cst_2
  let main_v11 : IVec S4x768x768 1 := cmpf .olt main_v9 main_v10
  let main_c_3 : IVec S_ 1 := constantI S_ 1 1#1
  let main_v12 : IVec S_ 1 := (fun x v => Host.reduce IntOp.andi x v reducesTo_S4x768x768_S_d0_1_2 h_S_) main_v11 main_c_3
  let main_v13 : IVec S_ 1 := andi main_v8 main_v12
  let main_v14 : FVec F S4x1x768 .f32 := Host.absf main_arg3
  let main_cst_4 : FVec F S_ .f32 := constant S_ .f32 0x7F800000#32
  let main_v15 : FVec F S4x1x768 .f32 := broadcastInDim S4x1x768 ![] bcast_S_S4x1x768 main_cst_4
  let main_v16 : IVec S4x1x768 1 := cmpf .olt main_v14 main_v15
  fn_part1 (F := F) main_arg4 main_arg5 main_arg6 main_arg7 main_v13 main_v16
-- ==== Kernel.lean ====
abbrev S4x4x512x768 : Shape := ⟨4, ![4, 4, 512, 768]⟩
abbrev S4x4x1x1x512 : Shape := ⟨5, ![4, 4, 1, 1, 512]⟩
abbrev S4x768x768 : Shape := ⟨3, ![4, 768, 768]⟩
abbrev S4x1x768 : Shape := ⟨3, ![4, 1, 768]⟩
abbrev S1x1x512x768 : Shape := ⟨4, ![1, 1, 512, 768]⟩
abbrev S1x1x1x1x512 : Shape := ⟨5, ![1, 1, 1, 1, 512]⟩
abbrev S1x768x768 : Shape := ⟨3, ![1, 768, 768]⟩
abbrev S1x1x768 : Shape := ⟨3, ![1, 1, 768]⟩
abbrev S512x768 : Shape := ⟨2, ![512, 768]⟩
abbrev S1x1x512 : Shape := ⟨3, ![1, 1, 512]⟩
abbrev S1x512 : Shape := ⟨2, ![1, 512]⟩
abbrev S768x768 : Shape := ⟨2, ![768, 768]⟩
abbrev S1x768 : Shape := ⟨2, ![1, 768]⟩
abbrev S512x128 : Shape := ⟨2, ![512, 128]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1x1x512x128 : Shape := ⟨4, ![1, 1, 512, 128]⟩

abbrev nBuf : Space → Nat
  | .hbm => 13
  | .vmem => 21
  | .smem => 0
  | _ => 0

abbrev bufTy : (tb : Table) → Fin (tcTables nBuf tb) → BufTy
  | .hbm, ⟨0, _⟩ => ⟨S4x4x512x768, .f32⟩
  | .hbm, ⟨1, _⟩ => ⟨S4x4x1x1x512, .f32⟩
  | .hbm, ⟨2, _⟩ => ⟨S4x768x768, .f32⟩
  | .hbm, ⟨3, _⟩ => ⟨S4x1x768, .f32⟩
  | .hbm, ⟨4, _⟩ => ⟨S4x768x768, .f32⟩
  | .hbm, ⟨5, _⟩ => ⟨S4x1x768, .f32⟩
  | .hbm, ⟨6, _⟩ => ⟨S4x768x768, .f32⟩
  | .hbm, ⟨7, _⟩ => ⟨S4x1x768, .f32⟩
  | .hbm, ⟨8, _⟩ => ⟨S4x4x512x768, .bf16⟩
  | .hbm, ⟨9, _⟩ => ⟨S4x768x768, .bf16⟩
  | .hbm, ⟨10, _⟩ => ⟨S4x768x768, .bf16⟩
  | .hbm, ⟨11, _⟩ => ⟨S4x768x768, .bf16⟩
  | .hbm, ⟨12, _⟩ => ⟨S4x4x512x768, .f32⟩
  | .local _ .vmem, ⟨0, _⟩ => ⟨S1x1x512x768, .bf16⟩
  | .local _ .vmem, ⟨1, _⟩ => ⟨S1x1x512x768, .bf16⟩
  | .local _ .vmem, ⟨2, _⟩ => ⟨S1x1x1x1x512, .f32⟩
  | .local _ .vmem, ⟨3, _⟩ => ⟨S1x1x1x1x512, .f32⟩
  | .local _ .vmem, ⟨4, _⟩ => ⟨S1x768x768, .bf16⟩
  | .local _ .vmem, ⟨5, _⟩ => ⟨S1x768x768, .bf16⟩
  | .local _ .vmem, ⟨6, _⟩ => ⟨S1x1x768, .f32⟩
  | .local _ .vmem, ⟨7, _⟩ => ⟨S1x1x768, .f32⟩
  | .local _ .vmem, ⟨8, _⟩ => ⟨S1x768x768, .bf16⟩
  | .local _ .vmem, ⟨9, _⟩ => ⟨S1x768x768, .bf16⟩
  | .local _ .vmem, ⟨10, _⟩ => ⟨S1x1x768, .f32⟩
  | .local _ .vmem, ⟨11, _⟩ => ⟨S1x1x768, .f32⟩
  | .local _ .vmem, ⟨12, _⟩ => ⟨S1x768x768, .bf16⟩
  | .local _ .vmem, ⟨13, _⟩ => ⟨S1x768x768, .bf16⟩
  | .local _ .vmem, ⟨14, _⟩ => ⟨S1x1x768, .f32⟩
  | .local _ .vmem, ⟨15, _⟩ => ⟨S1x1x768, .f32⟩
  | .local _ .vmem, ⟨16, _⟩ => ⟨S1x1x512x768, .f32⟩
  | .local _ .vmem, ⟨17, _⟩ => ⟨S1x1x512x768, .f32⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | _, _ => ⟨S4x4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c6_i32 : BitVec 32 := 6#32
  let v38 : BitVec 32 := Scalar.addi c0_i32 c6_i32
  let c1_i32 : BitVec 32 := 1#32
  ⟨c0_i32, v38, c1_i32⟩
def k0_mult1 (k0_t1 : Fin k0_t1_loop.trips) : BitVec 32 :=
  let c0_i32_36 : BitVec 32 := 0#32
  let c0_i32 : BitVec 32 := 0#32
  let c1_i32 : BitVec 32 := 1#32
  let arg14 : BitVec 32 := Scf.iv c0_i32 c1_i32 k0_t1
  let c1_i32_35 : BitVec 32 := 1#32
  let v39 : BitVec 32 := Scalar.muli arg14 c1_i32_35
  let v40 : BitVec 32 := Scalar.addi c0_i32_36 v39
  let c128_i32 : BitVec 32 := 128#32
  let v41 : BitVec 32 := Scalar.muli v40 c128_i32
  v41
def k0_off1 (k0_t1 : Fin k0_t1_loop.trips) : Fin 2 → Nat :=
  let c0_37 : Index := 0#32
  let c0_i32_36 : BitVec 32 := 0#32
  let c0_i32 : BitVec 32 := 0#32
  let c1_i32 : BitVec 32 := 1#32
  let arg14 : BitVec 32 := Scf.iv c0_i32 c1_i32 k0_t1
  let c1_i32_35 : BitVec 32 := 1#32
  let v39 : BitVec 32 := Scalar.muli arg14 c1_i32_35
  let v40 : BitVec 32 := Scalar.addi c0_i32_36 v39
  let c128_i32 : BitVec 32 := 128#32
  let v41 : BitVec 32 := Scalar.muli v40 c128_i32
  let v42 : BitVec 32 := v41
  let v43 : Index := Scalar.indexCast v42
  ![0, v43.toNat]
def k0_off2 (k0_t1 : Fin k0_t1_loop.trips) : Fin 4 → Nat :=
  let c0_50 : Index := 0#32
  let c0_51 : Index := 0#32
  let c0_52 : Index := 0#32
  let c0_i32_36 : BitVec 32 := 0#32
  let c0_i32 : BitVec 32 := 0#32
  let c1_i32 : BitVec 32 := 1#32
  let arg14 : BitVec 32 := Scf.iv c0_i32 c1_i32 k0_t1
  let c1_i32_35 : BitVec 32 := 1#32
  let v39 : BitVec 32 := Scalar.muli arg14 c1_i32_35
  let v40 : BitVec 32 := Scalar.addi c0_i32_36 v39
  let c128_i32 : BitVec 32 := 128#32
  let v41 : BitVec 32 := Scalar.muli v40 c128_i32
  let v42 : BitVec 32 := v41
  let v88 : Index := Scalar.indexCast v42
  ![0, 0, 0, v88.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x768x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S1x1x512x768_S1x1x512x768_0_0_0_0 : ∀ a, (![0, 0, 0, 0] : Fin 4 → Nat) a + S1x1x512x768.size a ≤ S1x1x512x768.size a
  h_S1x1x512x768 : 0 < S1x1x512x768.numel
  shapeCasts_S1x1x512x768_S512x768 : S1x1x512x768.ShapeCasts S512x768
  inb_S1x1x1x1x512_S1x1x1x1x512_0_0_0_0_0 : ∀ a, (![0, 0, 0, 0, 0] : Fin 5 → Nat) a + S1x1x1x1x512.size a ≤ S1x1x1x1x512.size a
  h_S1x1x1x1x512 : 0 < S1x1x1x1x512.numel
  shapeCasts_S1x1x1x1x512_S1x1x512 : S1x1x1x1x512.ShapeCasts S1x1x512
  shapeCasts_S1x1x512_S1x512 : S1x1x512.ShapeCasts S1x512
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  packedbf16_S512x768_S512x768_0_0 : (Rect.unit (s := S512x768) ![0, 0] S512x768.size inb_S512x768_S512x768_0_0).PackedRows (EltTy.packing .bf16)
  h_S512x128 : 0 < S512x128.numel
  slices_S512x128_o0_0_S512x64 : S512x128.Slices ![0, 0] S512x64
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  slices_S512x128_o0_64_S512x64 : S512x128.Slices ![0, 64] S512x64
  concatenates_S512x64_S512x64_S512x128_d1 : Shape.Concatenates [S512x64, S512x64] S512x128 1
  h_S1x1x512x128 : 0 < S1x1x512x128.numel
  shapeCasts_S1x1x512x128_S512x128 : S1x1x512x128.ShapeCasts S512x128
  shapeCasts_S512x128_S1x1x512x128 : S512x128.ShapeCasts S1x1x512x128
  dot_S512x768_S768x768_S512x768_1_0_0_1_n_n_wf : DotDims.WF S512x768 S768x768 S512x768 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S512x128.size a ≤ S512x768.size a
  k0_off2_inb : ∀ k0_t1 : Fin k0_t1_loop.trips, ∀ a, (k0_off2 k0_t1) a + S1x1x512x128.size a ≤ S1x1x512x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x768.size a ≤ S4x4x512x768.size a
  hwx0_0 : ∀ i : grid0.Coords, EltTy.bits .bf16 = 32 ∨ (Rect.block (s := S4x4x512x768) S1x1x512x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1x512.size a ≤ S4x4x1x1x512.size a
  hwx0_1 : ∀ i : grid0.Coords, EltTy.bits .f32 = 32 ∨ (Rect.block (s := S4x4x1x1x512) S1x1x1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768x768.size a ≤ S4x768x768.size a
  hwx0_2 : ∀ i : grid0.Coords, EltTy.bits .bf16 = 32 ∨ (Rect.block (s := S4x768x768) S1x768x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x768.size a ≤ S4x1x768.size a
  hwx0_3 : ∀ i : grid0.Coords, EltTy.bits .f32 = 32 ∨ (Rect.block (s := S4x1x768) S1x1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x768.size a ≤ S4x768x768.size a
  hwx0_4 : ∀ i : grid0.Coords, EltTy.bits .bf16 = 32 ∨ (Rect.block (s := S4x768x768) S1x768x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x768.size a ≤ S4x1x768.size a
  hwx0_5 : ∀ i : grid0.Coords, EltTy.bits .f32 = 32 ∨ (Rect.block (s := S4x1x768) S1x1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x768x768.size a ≤ S4x768x768.size a
  hwx0_6 : ∀ i : grid0.Coords, EltTy.bits .bf16 = 32 ∨ (Rect.block (s := S4x768x768) S1x768x768.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x768.size a ≤ S4x1x768.size a
  hwx0_7 : ∀ i : grid0.Coords, EltTy.bits .f32 = 32 ∨ (Rect.block (s := S4x1x768) S1x1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512x768.size a ≤ S4x4x512x768.size a
  hwx0_8 : ∀ i : grid0.Coords, EltTy.bits .f32 = 32 ∨ (Rect.block (s := S4x4x512x768) S1x1x512x768.size (cc0_transform_8 i) (hinb0_8 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x768x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x768.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x768x768.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1x768.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1x512x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x4x512x768 : Shape := ⟨4, ![4, 4, 512, 768]⟩
abbrev S4x4x1x1x512 : Shape := ⟨5, ![4, 4, 1, 1, 512]⟩
abbrev S4x768x768 : Shape := ⟨3, ![4, 768, 768]⟩
abbrev S4x1x768 : Shape := ⟨3, ![4, 1, 768]⟩
abbrev S4x2048x768 : Shape := ⟨3, ![4, 2048, 768]⟩
abbrev S4x4x512x12x64 : Shape := ⟨5, ![4, 4, 512, 12, 64]⟩
abbrev S4x4x12x512x64 : Shape := ⟨5, ![4, 4, 12, 512, 64]⟩
abbrev S4x4x12x512x512 : Shape := ⟨5, ![4, 4, 12, 512, 512]⟩
abbrev S_ : Shape := ⟨0, ![]⟩
abbrev S4x4x12x512 : Shape := ⟨4, ![4, 4, 12, 512]⟩
abbrev S4x4x12x512x1 : Shape := ⟨5, ![4, 4, 12, 512, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x4x512x768, .f32⟩
  | .hbm, ⟨1, _⟩ => ⟨S4x4x1x1x512, .f32⟩
  | .hbm, ⟨2, _⟩ => ⟨S4x768x768, .f32⟩
  | .hbm, ⟨3, _⟩ => ⟨S4x1x768, .f32⟩
  | .hbm, ⟨4, _⟩ => ⟨S4x768x768, .f32⟩
  | .hbm, ⟨5, _⟩ => ⟨S4x1x768, .f32⟩
  | .hbm, ⟨6, _⟩ => ⟨S4x768x768, .f32⟩
  | .hbm, ⟨7, _⟩ => ⟨S4x1x768, .f32⟩
  | .hbm, ⟨8, _⟩ => ⟨S4x2048x768, .f32⟩
  | .hbm, ⟨9, _⟩ => ⟨S4x2048x768, .f32⟩
  | .hbm, ⟨10, _⟩ => ⟨S4x2048x768, .f32⟩
  | .hbm, ⟨11, _⟩ => ⟨S4x2048x768, .f32⟩
  | .hbm, ⟨12, _⟩ => ⟨S4x4x512x12x64, .f32⟩
  | .hbm, ⟨13, _⟩ => ⟨S4x4x12x512x64, .f32⟩
  | .hbm, ⟨14, _⟩ => ⟨S4x2048x768, .f32⟩
  | .hbm, ⟨15, _⟩ => ⟨S4x2048x768, .f32⟩
  | .hbm, ⟨16, _⟩ => ⟨S4x2048x768, .f32⟩
  | .hbm, ⟨17, _⟩ => ⟨S4x4x512x12x64, .f32⟩
  | .hbm, ⟨18, _⟩ => ⟨S4x4x12x512x64, .f32⟩
  | .hbm, ⟨19, _⟩ => ⟨S4x2048x768, .f32⟩
  | .hbm, ⟨20, _⟩ => ⟨S4x2048x768, .f32⟩
  | .hbm, ⟨21, _⟩ => ⟨S4x2048x768, .f32⟩
  | .hbm, ⟨22, _⟩ => ⟨S4x4x512x12x64, .f32⟩
  | .hbm, ⟨23, _⟩ => ⟨S4x4x12x512x64, .f32⟩
  | .hbm, ⟨24, _⟩ => ⟨S4x4x12x512x512, .f32⟩
  | .hbm, ⟨25, _⟩ => ⟨S_, .f32⟩
  | .hbm, ⟨26, _⟩ => ⟨S4x4x12x512x512, .f32⟩
  | .hbm, ⟨27, _⟩ => ⟨S4x4x12x512x512, .f32⟩
  | .hbm, ⟨28, _⟩ => ⟨S4x4x12x512x512, .f32⟩
  | .hbm, ⟨29, _⟩ => ⟨S4x4x12x512x512, .f32⟩
  | .hbm, ⟨30, _⟩ => ⟨S_, .f32⟩
  | .hbm, ⟨31, _⟩ => ⟨S4x4x12x512, .f32⟩
  | .hbm, ⟨32, _⟩ => ⟨S_, .f32⟩
  | .hbm, ⟨33, _⟩ => ⟨S4x4x12x512, .f32⟩
  | .hbm, ⟨34, _⟩ => ⟨S4x4x12x512, .f32⟩
  | .hbm, ⟨35, _⟩ => ⟨S4x4x12x512x1, .f32⟩
  | .hbm, ⟨36, _⟩ => ⟨S4x4x12x512x512, .f32⟩
  | .hbm, ⟨37, _⟩ => ⟨S4x4x12x512x512, .f32⟩
  | .hbm, ⟨38, _⟩ => ⟨S4x4x12x512x512, .f32⟩
  | .hbm, ⟨39, _⟩ => ⟨S_, .f32⟩
  | .hbm, ⟨40, _⟩ => ⟨S4x4x12x512, .f32⟩
  | .hbm, ⟨41, _⟩ => ⟨S4x4x12x512x1, .f32⟩
  | .hbm, ⟨42, _⟩ => ⟨S4x4x12x512x512, .f32⟩
  | .hbm, ⟨43, _⟩ => ⟨S4x4x12x512x512, .f32⟩
  | .hbm, ⟨44, _⟩ => ⟨S4x4x12x512x64, .f32⟩
  | .hbm, ⟨45, _⟩ => ⟨S4x4x512x12x64, .f32⟩
  | .hbm, ⟨46, _⟩ => ⟨S4x4x512x768, .f32⟩
  | _, _ => ⟨S4x4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  shapeCasts_S4x4x512x768_S4x2048x768 : S4x4x512x768.ShapeCasts S4x2048x768
  bcast_S4x1x768_S4x2048x768_0_1_2 : S4x1x768.BroadcastsInDim S4x2048x768 (![0, 1, 2] : Fin 3 → Fin S4x2048x768.rank)
  shapeCasts_S4x2048x768_S4x4x512x12x64 : S4x2048x768.ShapeCasts S4x4x512x12x64
  transposes_S4x4x512x12x64_S4x4x12x512x64_0_1_3_2_4 : S4x4x512x12x64.Transposes [0, 1, 3, 2, 4] S4x4x12x512x64
  bcast_S_S4x4x12x512x512 : S_.BroadcastsInDim S4x4x12x512x512 (![] : Fin 0 → Fin S4x4x12x512x512.rank)
  bcast_S4x4x1x1x512_S4x4x12x512x512_0_1_2_3_4 : S4x4x1x1x512.BroadcastsInDim S4x4x12x512x512 (![0, 1, 2, 3, 4] : Fin 5 → Fin S4x4x12x512x512.rank)
  reducesTo_S4x4x12x512x512_S4x4x12x512_d4 : S4x4x12x512x512.ReducesTo [4] S4x4x12x512
  h_S_ : 0 < S_.numel
  bcast_S_S4x4x12x512 : S_.BroadcastsInDim S4x4x12x512 (![] : Fin 0 → Fin S4x4x12x512.rank)
  bcast_S4x4x12x512_S4x4x12x512x1_0_1_2_3 : S4x4x12x512.BroadcastsInDim S4x4x12x512x1 (![0, 1, 2, 3] : Fin 4 → Fin S4x4x12x512x1.rank)
  bcast_S4x4x12x512x1_S4x4x12x512x512_0_1_2_3_4 : S4x4x12x512x1.BroadcastsInDim S4x4x12x512x512 (![0, 1, 2, 3, 4] : Fin 5 → Fin S4x4x12x512x512.rank)
  transposes_S4x4x12x512x64_S4x4x512x12x64_0_1_3_2_4 : S4x4x12x512x64.Transposes [0, 1, 3, 2, 4] S4x4x512x12x64
  shapeCasts_S4x4x512x12x64_S4x4x512x768 : S4x4x512x12x64.ShapeCasts S4x4x512x768
  dot_S4x2048x768_S4x768x768_S4x2048x768_2_1_1_2_0_0_wf : DotDims.WF S4x2048x768 S4x768x768 S4x2048x768 [2] [1] [1] [2] [0] [0]
  dot_S4x4x12x512x64_S4x4x12x512x64_S4x4x12x512x512_4_4_3_3_012_012_wf : DotDims.WF S4x4x12x512x64 S4x4x12x512x64 S4x4x12x512x512 [4] [4] [3] [3] [0, 1, 2] [0, 1, 2]
  dot_S4x4x12x512x512_S4x4x12x512x64_S4x4x12x512x64_4_3_3_4_012_012_wf : DotDims.WF S4x4x12x512x512 S4x4x12x512x64 S4x4x12x512x64 [4] [3] [3] [4] [0, 1, 2] [0, 1, 2]

variable [Facts₀]

def dot_S4x2048x768_S4x768x768_S4x2048x768_2_1_1_2_0_0 : DotDims S4x2048x768 S4x768x768 S4x2048x768 where
  lhsContracting := [2]
  rhsContracting := [1]
  lhsNonContracting := [1]
  rhsNonContracting := [2]
  lhsBatch := [0]
  rhsBatch := [0]
  wf := dot_S4x2048x768_S4x768x768_S4x2048x768_2_1_1_2_0_0_wf
def dot_S4x4x12x512x64_S4x4x12x512x64_S4x4x12x512x512_4_4_3_3_012_012 : DotDims S4x4x12x512x64 S4x4x12x512x64 S4x4x12x512x512 where
  lhsContracting := [4]
  rhsContracting := [4]
  lhsNonContracting := [3]
  rhsNonContracting := [3]
  lhsBatch := [0, 1, 2]
  rhsBatch := [0, 1, 2]
  wf := dot_S4x4x12x512x64_S4x4x12x512x64_S4x4x12x512x512_4_4_3_3_012_012_wf
def dot_S4x4x12x512x512_S4x4x12x512x64_S4x4x12x512x64_4_3_3_4_012_012 : DotDims S4x4x12x512x512 S4x4x12x512x64 S4x4x12x512x64 where
  lhsContracting := [4]
  rhsContracting := [3]
  lhsNonContracting := [3]
  rhsNonContracting := [4]
  lhsBatch := [0, 1, 2]
  rhsBatch := [0, 1, 2]
  wf := dot_S4x4x12x512x512_S4x4x12x512x64_S4x4x12x512x64_4_3_3_4_012_012_wf

class Facts : Prop extends Facts₀ where

variable [Facts]
-- ==== Proof.Spec.lean ====
/-
  Multi-head self-attention on one (group, batch) block, written once as a function of the block's arrays over the
  extended reals, index by index. Both programs are shown to compute it.

  For hidden states `hs` (512 rows of 768), a row mask, and three weight/bias pairs:
    q, k, v = hs · W + b                                   (`proj`)
    s[l, m] = (Σ_{d < 64} q[l, h·64+d] · k[m, h·64+d]) · (1/8) + mask[m]      (`scoreW`, head h)
    p[l, ·] = softmax of the row s[l, ·], taken as exp (s − max s) / Σ exp (s − max s)   (`soft`)
    out[l, n] = Σ_m p[l, m] · v[m, n],  with h = n / 64 the head that column n belongs to   (`ctxW`, `attn`).
  The head of a column is its index divided by 64, so the same definitions read a full row of 768 columns (twelve
  heads) and a slab of 128 columns (two heads): `ctxW_slab` says a slab's result is the full row's at the slab's columns.
-/
import Idealize.ShloMosaic.PureOps.Ideal
import Idealize.ShloMosaic.Lib.ValueIdx

noncomputable section

open scoped BigOperators

namespace Cert.Attn

open Idealize.ShloMosaic Idealize.ShloMosaic.ValueIdx

/-- The score scale: the f32 word of 1/8 = 1/√64, the same word in both programs. -/
abbrev scale : EReal := Ideal.ofBits .f32 0x3E000000#32
/-- The word of -∞: where a row's maximum starts. -/
abbrev negInf : EReal := Ideal.ofBits .f32 0xFF800000#32

/-- Lane `d` of the head that column `n` belongs to: column `(n / 64) · 64 + d`, for a row whose width is a multiple of 64. -/
def hcol {W : Nat} (hW : 64 ∣ W) (n : Fin W) (d : Fin 64) : Fin W :=
  ⟨n.val / 64 * 64 + d.val, by obtain ⟨k, rfl⟩ := hW; have := n.isLt; have := d.isLt; omega⟩

/-- One projection: row `l` of the hidden states against column `n` of the weight, plus the bias. -/
def proj (hs : Fin 512 → Fin 768 → EReal) (w : Fin 768 → Fin 768 → EReal) (b : Fin 768 → EReal)
    (l : Fin 512) (n : Fin 768) : EReal :=
  (∑ c : Fin 768, hs l c * w c n) + b n

/-- The scaled, masked score of query row `l` against key row `m`, in the head of column `n`. -/
def scoreW {W : Nat} (hW : 64 ∣ W) (q k : Fin 512 → Fin W → EReal) (mask : Fin 512 → EReal) (n : Fin W)
    (l m : Fin 512) : EReal :=
  (∑ d : Fin 64, q l (hcol hW n d) * k m (hcol hW n d)) * scale + mask m

/-- A row's maximum, folded from -∞. -/
def rowMax (s : Fin 512 → EReal) : EReal := (Finset.univ : Finset (Fin 512)).fold max negInf s

/-- A row's exponentials after its maximum is subtracted. -/
def expo (s : Fin 512 → EReal) (m : Fin 512) : EReal := Ideal.exp (s m - rowMax s)

/-- The row's softmax: each shifted exponential over their sum. -/
def soft (s : Fin 512 → EReal) (m : Fin 512) : EReal := Ideal.div (expo s m) (∑ m' : Fin 512, expo s m')

/-- The attention output at row `l`, column `n`: the softmax row of column `n`'s head against column `n` of the values. -/
def ctxW {W : Nat} (hW : 64 ∣ W) (q k v : Fin 512 → Fin W → EReal) (mask : Fin 512 → EReal) (l : Fin 512) (n : Fin W) : EReal :=
  ∑ m : Fin 512, soft (scoreW hW q k mask n l) m * v m n

theorem dvd768 : 64 ∣ 768 := ⟨12, rfl⟩
theorem dvd128 : 64 ∣ 128 := ⟨2, rfl⟩

/-- One block's attention: the three projections of the hidden states, then `ctxW` over all twelve heads. -/
def attn (hs : Fin 512 → Fin 768 → EReal) (mask : Fin 512 → EReal)
    (wq : Fin 768 → Fin 768 → EReal) (bq : Fin 768 → EReal) (wk : Fin 768 → Fin 768 → EReal) (bk : Fin 768 → EReal)
    (wv : Fin 768 → Fin 768 → EReal) (bv : Fin 768 → EReal) (l : Fin 512) (n : Fin 768) : EReal :=
  ctxW dvd768 (proj hs wq bq) (proj hs wk bk) (proj hs wv bv) mask l n

/-- Lane `d` of a slab's first head, as a slab column. -/
def lo (d : Fin 64) : Fin 128 := ⟨d.val, by have := d.isLt; omega⟩
/-- Lane `d` of a slab's second head, as a slab column. -/
def hi (d : Fin 64) : Fin 128 := ⟨64 + d.val, by have := d.isLt; omega⟩
/-- Lane `d` of head `h`, as a column of the full row. -/
def col (h : Fin 12) (d : Fin 64) : Fin 768 := ⟨h.val * 64 + d.val, by have := h.isLt; have := d.isLt; omega⟩

/-- The scores depend on the column only through its head. -/
theorem scoreW_congr {W : Nat} (hW : 64 ∣ W) (q k : Fin 512 → Fin W → EReal) (mask : Fin 512 → EReal) (n n' : Fin W)
    (h : n.val / 64 = n'.val / 64) : scoreW hW q k mask n = scoreW hW q k mask n' := by
  funext l m
  unfold scoreW
  have e : ∀ d, hcol hW n d = hcol hW n' d := fun d => Fin.ext (by show n.val / 64 * 64 + d.val = n'.val / 64 * 64 + d.val; rw [h])
  simp only [e]

theorem hcol_lo (d d' : Fin 64) : hcol dvd128 (lo d) d' = lo d' := by
  apply Fin.ext; show d.val / 64 * 64 + d'.val = d'.val; have := d.isLt; omega
theorem hcol_hi (d d' : Fin 64) : hcol dvd128 (hi d) d' = hi d' := by
  apply Fin.ext; show (64 + d.val) / 64 * 64 + d'.val = 64 + d'.val; have := d.isLt; omega
theorem hcol_col (h : Fin 12) (d d' : Fin 64) : hcol dvd768 (col h d) d' = col h d' := by
  apply Fin.ext; show (h.val * 64 + d.val) / 64 * 64 + d'.val = h.val * 64 + d'.val; have := d.isLt; omega
/-- Every slab column is a lane of its first or of its second head. -/
theorem lo_or_hi (j : Fin 128) : (∃ d, j = lo d) ∨ (∃ d, j = hi d) := by
  by_cases h : j.val < 64
  · exact Or.inl ⟨⟨j.val, h⟩, Fin.ext rfl⟩
  · exact Or.inr ⟨⟨j.val - 64, by have := j.isLt; omega⟩, Fin.ext (by show j.val = 64 + (j.val - 64); omega)⟩
/-- Every column of the full row is a lane of one of the twelve heads. -/
theorem eq_col (n : Fin 768) : n = col ⟨n.val / 64, by have := n.isLt; omega⟩ ⟨n.val % 64, by omega⟩ :=
  Fin.ext (by show n.val = n.val / 64 * 64 + n.val % 64; omega)

/-- Column `j` of the `p`-th slab of 128 columns (two heads). -/
def slabCol (p : Fin 6) (j : Fin 128) : Fin 768 := ⟨p.val * 128 + j.val, by have := p.isLt; have := j.isLt; omega⟩

theorem hcol_slab (p : Fin 6) (j : Fin 128) (d : Fin 64) :
    hcol dvd768 (slabCol p j) d = slabCol p (hcol dvd128 j d) := by
  apply Fin.ext
  show (p.val * 128 + j.val) / 64 * 64 + d.val = p.val * 128 + (j.val / 64 * 64 + d.val)
  have := j.isLt; omega

/-- A slab of 128 columns is self-contained: attention computed on the slab's columns of q, k, v alone is the full
    row's attention at those columns (a column's head lies inside its slab). -/
theorem ctxW_slab (q k v : Fin 512 → Fin 768 → EReal) (mask : Fin 512 → EReal) (p : Fin 6) (l : Fin 512) (j : Fin 128) :
    ctxW dvd128 (fun l j => q l (slabCol p j)) (fun m j => k m (slabCol p j)) (fun m j => v m (slabCol p j)) mask l j
      = ctxW dvd768 q k v mask l (slabCol p j) := by
  unfold ctxW scoreW
  simp only [hcol_slab]

/-- Folding `max` from a start value never goes below it. -/
theorem max_negInf_rowMax (s : Fin 512 → EReal) : max negInf (rowMax s) = rowMax s :=
  max_eq_right (Finset.le_fold_max (b := negInf) (f := s) (s := Finset.univ) negInf |>.mpr (Or.inl le_rfl))

/-! ## Blocks of the arrays

An argument array's block for group `g` (and batch `b`), as plain functions of row and column. The leading extents are
implicit, so the same text reads a whole array (extents 4) and one staged block of it (extents 1). -/

/-- Hidden states of group `g`, batch `b`: 512 rows of 768. -/
abbrev hsB {G B : Nat} (x : (⟨4, ![G, B, 512, 768]⟩ : Shape).Idx → EReal) (g : Fin G) (b : Fin B) : Fin 512 → Fin 768 → EReal :=
  fun l c => x (ix4 g b l c)
/-- The mask row of group `g`, batch `b`. -/
abbrev maskB {G B : Nat} (x : (⟨5, ![G, B, 1, 1, 512]⟩ : Shape).Idx → EReal) (g : Fin G) (b : Fin B) : Fin 512 → EReal :=
  fun m => x (ix5 g b (0 : Fin 1) (0 : Fin 1) m)
/-- A weight of group `g`: 768 by 768. -/
abbrev wB {G : Nat} (x : (⟨3, ![G, 768, 768]⟩ : Shape).Idx → EReal) (g : Fin G) : Fin 768 → Fin 768 → EReal :=
  fun c n => x (ix3 g c n)
/-- A bias of group `g`. -/
abbrev bB {G : Nat} (x : (⟨3, ![G, 1, 768]⟩ : Shape).Idx → EReal) (g : Fin G) : Fin 768 → EReal :=
  fun n => x (ix3 g (0 : Fin 1) n)

/-- The result at group `g`, batch `b`, row `l`, column `n`: `attn` of that block of every argument. -/
def outAt (x0 : (⟨4, ![4, 4, 512, 768]⟩ : Shape).Idx → EReal) (x1 : (⟨5, ![4, 4, 1, 1, 512]⟩ : Shape).Idx → EReal)
    (x2 : (⟨3, ![4, 768, 768]⟩ : Shape).Idx → EReal) (x3 : (⟨3, ![4, 1, 768]⟩ : Shape).Idx → EReal)
    (x4 : (⟨3, ![4, 768, 768]⟩ : Shape).Idx → EReal) (x5 : (⟨3, ![4, 1, 768]⟩ : Shape).Idx → EReal)
    (x6 : (⟨3, ![4, 768, 768]⟩ : Shape).Idx → EReal) (x7 : (⟨3, ![4, 1, 768]⟩ : Shape).Idx → EReal)
    (g b : Fin 4) (l : Fin 512) (n : Fin 768) : EReal :=
  attn (hsB x0 g b) (maskB x1 g b) (wB x2 g) (bB x3 g) (wB x4 g) (bB x5 g) (wB x6 g) (bB x7 g) l n

/-- … as one array. -/
def out (x0 : (⟨4, ![4, 4, 512, 768]⟩ : Shape).Idx → EReal) (x1 : (⟨5, ![4, 4, 1, 1, 512]⟩ : Shape).Idx → EReal)
    (x2 : (⟨3, ![4, 768, 768]⟩ : Shape).Idx → EReal) (x3 : (⟨3, ![4, 1, 768]⟩ : Shape).Idx → EReal)
    (x4 : (⟨3, ![4, 768, 768]⟩ : Shape).Idx → EReal) (x5 : (⟨3, ![4, 1, 768]⟩ : Shape).Idx → EReal)
    (x6 : (⟨3, ![4, 768, 768]⟩ : Shape).Idx → EReal) (x7 : (⟨3, ![4, 1, 768]⟩ : Shape).Idx → EReal) :
    (⟨4, ![4, 4, 512, 768]⟩ : Shape).Idx → EReal :=
  fun i => outAt x0 x1 x2 x3 x4 x5 x6 x7 (i 0) (i 1) (i 2) (i 3)

theorem out_apply (x0 : (⟨4, ![4, 4, 512, 768]⟩ : Shape).Idx → EReal) (x1 : (⟨5, ![4, 4, 1, 1, 512]⟩ : Shape).Idx → EReal)
    (x2 : (⟨3, ![4, 768, 768]⟩ : Shape).Idx → EReal) (x3 : (⟨3, ![4, 1, 768]⟩ : Shape).Idx → EReal)
    (x4 : (⟨3, ![4, 768, 768]⟩ : Shape).Idx → EReal) (x5 : (⟨3, ![4, 1, 768]⟩ : Shape).Idx → EReal)
    (x6 : (⟨3, ![4, 768, 768]⟩ : Shape).Idx → EReal) (x7 : (⟨3, ![4, 1, 768]⟩ : Shape).Idx → EReal)
    (g b : Fin 4) (l : Fin 512) (n : Fin 768) :
    out x0 x1 x2 x3 x4 x5 x6 x7 (ix4 g b l n) = outAt x0 x1 x2 x3 x4 x5 x6 x7 g b l n := rfl

end Cert.Attn

end
-- ==== Proof.KProj.lean ====
/-
  The three projections as the kernel body computes them. Each is one `tpu.matmul` of the staged block of hidden states
  (its two unit axes dropped) against the staged weight into a zero accumulator, plus the bias row broadcast down the
  512 rows; the narrowing to bf16 is the identity on extended reals. So entry (l, n) is Σ_c hs[l, c] · W[c, n] + b[n]:
  `Cert.Attn.proj` of the blocks.
-/
import proofs.«412010_j55800215110214_3_alg».proof.Proof.Gen.KernelIdeal.Skeleton
import proofs.«412010_j55800215110214_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Attn

/-! ## Reading the layout operations at an index -/

/-- The staged block of hidden states with its two unit axes dropped: entry (l, c) of the 512 × 768 array is entry
    (0, 0, l, c) of the block, the two having the same row-major position l · 768 + c. -/
private theorem pay7_apply (x0 : Vec Ideal S1x1x512x768 .bf16) (l : Fin 512) (c : Fin 768) :
    k0_pay7 (F := Ideal) x0 (ix2 l c) = x0 (ix4 (0 : Fin 1) (0 : Fin 1) l c) := by
  unfold k0_pay7
  exact shapeCast_apply x0 shapeCasts_S1x1x512x768_S512x768 (ix2 l c) (ix4 (0 : Fin 1) (0 : Fin 1) l c)
    (by rw [Shape.rowMajor_val_four, Shape.rowMajor_val_two]
        show ((0 * 1 + 0) * 512 + l.val) * 768 + c.val = l.val * 768 + c.val
        omega)

/-! ## The contraction's operand indices, axis by axis

The product contracts axis 1 of the left operand with axis 0 of the right: at result index (l, n) and contraction
position q the left operand is read at (l, q) and the right at (q, n). -/

private theorem lhs_axis0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide),
    dif_pos (show (0 : Fin S512x768.rank) ∈ dot_S512x768_S768x768_S512x768_1_0_0_1_n_n.lhsNonContracting by decide)]
  rfl

private theorem lhs_axis1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q

private theorem rhs_axis0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q

private theorem rhs_axis1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide),
    dif_pos (show (1 : Fin S768x768.rank) ∈ dot_S512x768_S768x768_S512x768_1_0_0_1_n_n.rhsNonContracting by decide)]
  rfl

/-! ## One projection at an index -/

/-- The projection of an already-reshaped 512 × 768 array `hs` against a staged weight and bias, at (l, n):
    Σ_c hs[l, c] · w[0, c, n] + b[0, 0, n]. The product into a zero accumulator is the bare sum over the contraction
    axis; the weight's cast drops a leading unit axis (position c · 768 + n on both sides); the bias row is read at
    column n whatever the row; the narrowing and the final cast to the same shape change nothing. -/
private theorem pay1_gen (hs : FVec Ideal S512x768 .bf16) (w : Vec Ideal S1x768x768 .bf16) (b : Vec Ideal S1x1x768 .f32)
    (l : Fin 512) (n : Fin 768) :
    k0_pay1 (F := Ideal) hs w b (ix2 l n)
      = (∑ c : Fin 768, hs (ix2 l c) * w (ix3 (0 : Fin 1) c n)) + b (ix3 (0 : Fin 1) (0 : Fin 1) n) := by
  unfold k0_pay1
  refine (congrFun (shapeCast_self _ _) _).trans ?_
  refine (truncf_apply (φ := FTy.f32) (ψ := FTy.bf16) _ bitsLt_bf16_f32 (ix2 l n)).trans ?_
  refine (addf_apply (φ := FTy.f32) _ _ (ix2 l n)).trans ?_
  refine congrArg₂ (· + ·) ?_ ?_
  · -- the product
    refine (Ideal.matmul_constant_zero_apply dot_S512x768_S768x768_S512x768_1_0_0_1_n_n none hs _ (ix2 l n)).trans ?_
    rw [← Equiv.sum_comp (contrEquiv1 dot_S512x768_S768x768_S512x768_1_0_0_1_n_n 768 rfl rfl).symm]
    refine Finset.sum_congr rfl fun k _ => ?_
    have hk := contrEquiv1_symm_val dot_S512x768_S768x768_S512x768_1_0_0_1_n_n 768 rfl rfl k
    have el : dot_S512x768_S768x768_S512x768_1_0_0_1_n_n.lhsIdx (ix2 l n)
        ((contrEquiv1 dot_S512x768_S768x768_S512x768_1_0_0_1_n_n 768 rfl rfl).symm k) = ix2 l k :=
      funext fun a => Fin.ext (by
        match a with
        | ⟨0, _⟩ => exact lhs_axis0 _ _
        | ⟨1, _⟩ => exact (lhs_axis1 _ _).trans hk)
    have er : dot_S512x768_S768x768_S512x768_1_0_0_1_n_n.rhsIdx (ix2 l n)
        ((contrEquiv1 dot_S512x768_S768x768_S512x768_1_0_0_1_n_n 768 rfl rfl).symm k) = ix2 k n :=
      funext fun a => Fin.ext (by
        match a with
        | ⟨0, _⟩ => exact (rhs_axis0 _ _).trans hk
        | ⟨1, _⟩ => exact rhs_axis1 _ _)
    rw [el, er]
    refine congrArg (hs (ix2 l k) * ·) ?_
    exact shapeCast_apply w shapeCasts_S1x768x768_S768x768 (ix2 k n) (ix3 (0 : Fin 1) k n)
      (by rw [Shape.rowMajor_val_three, Shape.rowMajor_val_two]
          show (0 * 768 + k.val) * 768 + n.val = k.val * 768 + n.val
          omega)
  · -- the bias row
    refine (broadcastTo_apply _ broadcasts_S1x768_S512x768 (ix2 l n) (ix2 (0 : Fin 1) n) (fun a => match a with
      | ⟨0, _⟩ => by show 0 = if (1 : Nat) = 1 then 0 else l.val; rw [if_pos rfl]
      | ⟨1, _⟩ => by show n.val = if (768 : Nat) = 1 then 0 else n.val; rw [if_neg (by decide)])).trans ?_
    exact shapeCast_apply b shapeCasts_S1x1x768_S1x768 (ix2 (0 : Fin 1) n) (ix3 (0 : Fin 1) (0 : Fin 1) n)
      (by rw [Shape.rowMajor_val_three, Shape.rowMajor_val_two]
          show (0 * 1 + 0) * 768 + n.val = 0 * 768 + n.val
          omega)

/-- The value projection's payload (over the hidden states already reshaped, `k0_pay7`) at row `l`, column `n`. -/
theorem pay1_apply (x0 : Vec Ideal S1x1x512x768 .bf16) (w : Vec Ideal S1x768x768 .bf16) (b : Vec Ideal S1x1x768 .f32)
    (l : Fin 512) (n : Fin 768) :
    k0_pay1 (F := Ideal) (k0_pay7 x0) w b (ix2 l n) = proj (hsB (G := 1) (B := 1) x0 (0 : Fin 1) (0 : Fin 1)) (wB (G := 1) w (0 : Fin 1)) (bB (G := 1) b (0 : Fin 1)) l n := by
  refine (pay1_gen (k0_pay7 x0) w b l n).trans ?_
  unfold proj
  refine congrArg (· + b (ix3 (0 : Fin 1) (0 : Fin 1) n)) ?_
  exact Finset.sum_congr rfl fun c _ => congrArg (· * w (ix3 (0 : Fin 1) c n)) (pay7_apply x0 l c)

/-- The query projection's payload at row `l`, column `n`. -/
theorem pay9_apply (x0 : Vec Ideal S1x1x512x768 .bf16) (w : Vec Ideal S1x768x768 .bf16) (b : Vec Ideal S1x1x768 .f32)
    (l : Fin 512) (n : Fin 768) :
    k0_pay9 (F := Ideal) x0 w b (ix2 l n) = proj (hsB (G := 1) (B := 1) x0 (0 : Fin 1) (0 : Fin 1)) (wB (G := 1) w (0 : Fin 1)) (bB (G := 1) b (0 : Fin 1)) l n :=
  pay1_apply x0 w b l n

/-- The key projection's payload at row `l`, column `n`. -/
theorem pay10_apply (x0 : Vec Ideal S1x1x512x768 .bf16) (w : Vec Ideal S1x768x768 .bf16) (b : Vec Ideal S1x1x768 .f32)
    (l : Fin 512) (n : Fin 768) :
    k0_pay10 (F := Ideal) x0 w b (ix2 l n) = proj (hsB (G := 1) (B := 1) x0 (0 : Fin 1) (0 : Fin 1)) (wB (G := 1) w (0 : Fin 1)) (bB (G := 1) b (0 : Fin 1)) l n :=
  pay1_apply x0 w b l n

/-- The mask row as the loop reads it: the staged mask block with its unit axes dropped. -/
theorem pay8_apply (x1 : Vec Ideal S1x1x1x1x512 .f32) (m : Fin 512) :
    k0_pay8 (F := Ideal) x1 (ix2 (0 : Fin 1) m) = maskB (G := 1) (B := 1) x1 (0 : Fin 1) (0 : Fin 1) m := by
  unfold k0_pay8
  refine (shapeCast_apply _ shapeCasts_S1x1x512_S1x512 (ix2 (0 : Fin 1) m) (ix3 (0 : Fin 1) (0 : Fin 1) m)
    (by rw [Shape.rowMajor_val_three, Shape.rowMajor_val_two]
        show (0 * 1 + 0) * 512 + m.val = 0 * 512 + m.val
        omega)).trans ?_
  exact shapeCast_apply x1 shapeCasts_S1x1x1x1x512_S1x1x512 (ix3 (0 : Fin 1) (0 : Fin 1) m)
    (ix5 (0 : Fin 1) (0 : Fin 1) (0 : Fin 1) (0 : Fin 1) m)
    (by rw [Shape.rowMajor_val_five, Shape.rowMajor_val_three]
        show ((((0 * 1 + 0) * 1 + 0) * 1 + 0) * 512 + m.val) = (0 * 1 + 0) * 512 + m.val
        omega)

end Cert.KernelIdeal.Pay

end
-- ==== Proof.KHead0.lean ====
/-
  The first head of a slab. From the three loaded slabs (128 columns of q, k, v: two heads) the body slices the first 64
  lanes of each, multiplies q against k over the 64 lanes (a matmul contracting both operands' second axis, into zero),
  scales by 1/8, adds the mask row, takes each row's maximum from -∞, exponentiates the shifted scores, divides by the
  row sum, and multiplies the probabilities against v's 64 lanes: `Cert.Attn.ctxW` of the slab at the first head's lanes.
-/
import proofs.«412010_j55800215110214_3_alg».proof.Proof.Gen.KernelIdeal.Skeleton
import proofs.«412010_j55800215110214_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Attn

/-! ## The body's operations read at an index

Each non-pointwise operation of the body, read at explicit coordinates: the lane slice, the two products (as sums over
the contracted axis), a row's maximum and sum over its lanes, and the column forms `[512] → [512, 1] → [512, 512]`
through which a row's maximum and sum reach every lane of the row. -/

namespace Head0

/-- The first 64 lanes of a slab: lane `d` of the slice is column `lo d` of the slab. -/
theorem slice_lo_apply (x : Vec Ideal S512x128 .bf16) (l : Fin 512) (d : Fin 64) :
    extractStridedSlice S512x64 ![0, 0] x slices_S512x128_o0_0_S512x64 (ix2 l d) = x (ix2 l (lo d)) :=
  slice2_axis1_apply 0 x slices_S512x128_o0_0_S512x64 l d (lo d) (Nat.zero_add _).symm

theorem lhs_qk_0 (j : S512x512.Idx) (c : dot_S512x64_S512x64_S512x512_1_1_0_0_n_n.contr.Idx) :
    (dot_S512x64_S512x64_S512x512_1_1_0_0_n_n.lhsIdx j c 0).val = (j 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem lhs_qk_1 (j : S512x512.Idx) (c : dot_S512x64_S512x64_S512x512_1_1_0_0_n_n.contr.Idx) :
    (dot_S512x64_S512x64_S512x512_1_1_0_0_n_n.lhsIdx j c 1).val = (c ⟨0, by decide⟩).val :=
  dot_S512x64_S512x64_S512x512_1_1_0_0_n_n.lhsIdx_val_of_single rfl j c
theorem rhs_qk_0 (j : S512x512.Idx) (c : dot_S512x64_S512x64_S512x512_1_1_0_0_n_n.contr.Idx) :
    (dot_S512x64_S512x64_S512x512_1_1_0_0_n_n.rhsIdx j c 0).val = (j 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem rhs_qk_1 (j : S512x512.Idx) (c : dot_S512x64_S512x64_S512x512_1_1_0_0_n_n.contr.Idx) :
    (dot_S512x64_S512x64_S512x512_1_1_0_0_n_n.rhsIdx j c 1).val = (c ⟨0, by decide⟩).val :=
  dot_S512x64_S512x64_S512x512_1_1_0_0_n_n.rhsIdx_val_of_single rfl j c

/-- The product of queries against keys over the 64 lanes, both operands contracted on their lane axis:
    at `(l, m)` the sum over lanes of `a[l, d] · b[m, d]`. -/
theorem qk_apply (a b : FVec Ideal S512x64 .bf16) (l m : Fin 512) :
    matmul dot_S512x64_S512x64_S512x512_1_1_0_0_n_n none a b (constant (F := Ideal) S512x512 .f32 0x00000000#32) (ix2 l m)
      = ∑ d : Fin 64, a (ix2 l d) * b (ix2 m d) := by
  refine (Ideal.matmul_constant_zero_apply dot_S512x64_S512x64_S512x512_1_1_0_0_n_n none a b (ix2 l m)).trans ?_
  rw [← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  have el : dot_S512x64_S512x64_S512x512_1_1_0_0_n_n.lhsIdx (ix2 l m) ((contrEquiv1 dot_S512x64_S512x64_S512x512_1_1_0_0_n_n 64 rfl rfl).symm k) = ix2 l k := funext fun ax => Fin.ext (by
    match ax with
    | ⟨0, _⟩ => exact lhs_qk_0 _ _
    | ⟨1, _⟩ => exact (lhs_qk_1 _ _).trans hk)
  have er : dot_S512x64_S512x64_S512x512_1_1_0_0_n_n.rhsIdx (ix2 l m) ((contrEquiv1 dot_S512x64_S512x64_S512x512_1_1_0_0_n_n 64 rfl rfl).symm k) = ix2 m k := funext fun ax => Fin.ext (by
    match ax with
    | ⟨0, _⟩ => exact rhs_qk_0 _ _
    | ⟨1, _⟩ => exact (rhs_qk_1 _ _).trans hk)
  rw [el, er]

theorem lhs_pv_0 (j : S512x64.Idx) (c : dot_S512x512_S512x64_S512x64_1_0_0_1_n_n.contr.Idx) :
    (dot_S512x512_S512x64_S512x64_1_0_0_1_n_n.lhsIdx j c 0).val = (j 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_pv_1 (j : S512x64.Idx) (c : dot_S512x512_S512x64_S512x64_1_0_0_1_n_n.contr.Idx) :
    (dot_S512x512_S512x64_S512x64_1_0_0_1_n_n.lhsIdx j c 1).val = (c ⟨0, by decide⟩).val :=
  dot_S512x512_S512x64_S512x64_1_0_0_1_n_n.lhsIdx_val_of_single rfl j c
theorem rhs_pv_0 (j : S512x64.Idx) (c : dot_S512x512_S512x64_S512x64_1_0_0_1_n_n.contr.Idx) :
    (dot_S512x512_S512x64_S512x64_1_0_0_1_n_n.rhsIdx j c 0).val = (c ⟨0, by decide⟩).val :=
  dot_S512x512_S512x64_S512x64_1_0_0_1_n_n.rhsIdx_val_of_single rfl j c
theorem rhs_pv_1 (j : S512x64.Idx) (c : dot_S512x512_S512x64_S512x64_1_0_0_1_n_n.contr.Idx) :
    (dot_S512x512_S512x64_S512x64_1_0_0_1_n_n.rhsIdx j c 1).val = (j 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The product of the probabilities against the values over the 512 key rows: at `(l, d)` the sum over rows `m`
    of `p[l, m] · w[m, d]`. -/
theorem pv_apply (p : FVec Ideal S512x512 .bf16) (w : FVec Ideal S512x64 .bf16) (l : Fin 512) (d : Fin 64) :
    matmul dot_S512x512_S512x64_S512x64_1_0_0_1_n_n none p w (constant (F := Ideal) S512x64 .f32 0x00000000#32) (ix2 l d)
      = ∑ m : Fin 512, p (ix2 l m) * w (ix2 m d) := by
  refine (Ideal.matmul_constant_zero_apply dot_S512x512_S512x64_S512x64_1_0_0_1_n_n none p w (ix2 l d)).trans ?_
  rw [← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 l d) ((contrEquiv1 dot_S512x512_S512x64_S512x64_1_0_0_1_n_n 512 rfl rfl).symm k) = ix2 l k := funext fun ax => Fin.ext (by
    match ax with
    | ⟨0, _⟩ => exact lhs_pv_0 _ _
    | ⟨1, _⟩ => exact (lhs_pv_1 _ _).trans hk)
  have er : dot_S512x512_S512x64_S512x64_1_0_0_1_n_n.rhsIdx (ix2 l d) ((contrEquiv1 dot_S512x512_S512x64_S512x64_1_0_0_1_n_n 512 rfl rfl).symm k) = ix2 k d := funext fun ax => Fin.ext (by
    match ax with
    | ⟨0, _⟩ => exact (rhs_pv_0 _ _).trans hk
    | ⟨1, _⟩ => exact rhs_pv_1 _ _)
  rw [el, er]

/-- The index of row `l` with `m` put back on the reduced lane axis is `(l, m)`. -/
theorem lift_row (l m : Fin 512) : (reduces_S512x512_S512).lift (ix1 l) m = ix2 l m :=
  funext fun ax => Fin.ext (by
    match ax with
    | ⟨0, _⟩ => rfl
    | ⟨1, _⟩ => rfl)

/-- A row's maximum over its 512 lanes, from the word of -∞: the fold of `max` over the row's entries. -/
theorem rowmax_apply (s : FVec Ideal S512x512 .f32) (hφ : FKind.Formats .f32)
    (hacc : (0xFF800000#32 : BitVec 32) = 0xFF800000#32) (l : Fin 512) :
    multiReduction .maximumf [1] S512 s 0xFF800000#32 reduces_S512x512_S512 hφ hacc (ix1 l)
      = (Finset.univ : Finset (Fin 512)).fold max (Ideal.ofBits .f32 0xFF800000#32) (fun m => s (ix2 l m)) := by
  refine (Ideal.multiReduction_maximumf_single s 0xFF800000#32 reduces_S512x512_S512 hφ hacc (ix1 l)).trans ?_
  have e : (s ∘ (reduces_S512x512_S512).lift (ix1 l)) = fun m : Fin 512 => s (ix2 l m) :=
    funext fun m => congrArg s (lift_row l m)
  exact congrArg (fun f : Fin 512 → EReal => (Finset.univ : Finset (Fin 512)).fold max (Ideal.ofBits .f32 0xFF800000#32) f) e

/-- A row's sum over its 512 lanes. -/
theorem rowsum_apply (s : FVec Ideal S512x512 .f32) (hφ : FKind.Formats .f32)
    (hacc : (0x00000000#32 : BitVec 32) = 0x00000000#32) (l : Fin 512) :
    multiReduction .add [1] S512 s 0x00000000#32 reduces_S512x512_S512 hφ hacc (ix1 l)
      = ∑ m : Fin 512, s (ix2 l m) := by
  refine (Ideal.multiReduction_add_single s 0x00000000#32 reduces_S512x512_S512 hφ hacc (ix1 l)).trans ?_
  show ∑ m : Fin 512, s ((reduces_S512x512_S512).lift (ix1 l) m) = _
  simp only [lift_row]

/-- A column of 512 entries cast to `[512, 1]` reads, at `(l, u)`, the entry `l`. -/
theorem col_cast_apply {α : Type} (x : S512.Idx → α) (l : Fin 512) (u : Fin 1) :
    shapeCast S512x1 x shapeCasts_S512_S512x1 (ix2 l u) = x (ix1 l) :=
  shapeCast_apply x shapeCasts_S512_S512x1 _ _ (by
    have hu : u.val = 0 := by omega
    rw [Shape.rowMajor_val_two, Shape.rowMajor_val_one]
    show l.val = l.val * 1 + u.val
    rw [hu, Nat.mul_one, Nat.add_zero])

/-- A `[512, 1]` column broadcast along the lanes reads, at `(l, m)`, the column's entry `l`. -/
theorem col_bcast_apply {α : Type} (x : S512x1.Idx → α) (l m : Fin 512) :
    broadcastTo S512x512 x broadcasts_S512x1_S512x512 (ix2 l m) = x (ix2 l (0 : Fin 1)) := by
  refine broadcastTo_apply x broadcasts_S512x1_S512x512 (ix2 l m) (ix2 l (0 : Fin 1)) fun ax => ?_
  match ax with
  | ⟨0, _⟩ => rfl
  | ⟨1, _⟩ => rfl

/-- The mask row broadcast over the 512 query rows reads, at `(l, m)`, the mask at `m`. -/
theorem mask_bcast_apply {α : Type} (x : S1x512.Idx → α) (l m : Fin 512) :
    broadcastTo S512x512 x broadcasts_S1x512_S512x512 (ix2 l m) = x (ix2 (0 : Fin 1) m) :=
  broadcastTo_1b_ab_apply x broadcasts_S1x512_S512x512 l m

/-- The scores with each row's maximum subtracted, exponentiated: at `(l, m)` the shifted exponential `expo` of
    row `l` at `m` (the row maximum is read through the `[512] → [512, 1] → [512, 512]` column forms). -/
theorem expo_apply (s : FVec Ideal S512x512 .f32) (l m : Fin 512) :
    exp (subf s (broadcastTo S512x512 (shapeCast S512x1 (multiReduction .maximumf [1] S512 s 0xFF800000#32 reduces_S512x512_S512 (.inl rfl) rfl) shapeCasts_S512_S512x1) broadcasts_S512x1_S512x512)) (ix2 l m)
      = expo (fun m' => s (ix2 l m')) m := by
  show Ideal.exp (s (ix2 l m) - broadcastTo S512x512 (shapeCast S512x1 (multiReduction .maximumf [1] S512 s 0xFF800000#32 reduces_S512x512_S512 (.inl rfl) rfl) shapeCasts_S512_S512x1) broadcasts_S512x1_S512x512 (ix2 l m))
    = Ideal.exp (s (ix2 l m) - (Finset.univ : Finset (Fin 512)).fold max negInf (fun m' => s (ix2 l m')))
  refine congrArg (fun x : EReal => Ideal.exp (s (ix2 l m) - x)) ?_
  refine (col_bcast_apply _ l m).trans ?_
  refine (col_cast_apply _ l (0 : Fin 1)).trans ?_
  exact rowmax_apply s (.inl rfl) rfl l

/-- Any array of shifted exponentials divided by its row sums (read through the same column forms) and narrowed:
    at `(l, m)` the entry over its row's sum. -/
theorem div_rowsum_apply (e : FVec Ideal S512x512 .f32) (l m : Fin 512) :
    (truncf .bf16 (divf e (broadcastTo S512x512 (shapeCast S512x1 (multiReduction .add [1] S512 e 0x00000000#32 reduces_S512x512_S512 (.inl rfl) rfl) shapeCasts_S512_S512x1) broadcasts_S512x1_S512x512)) bitsLt_bf16_f32 : FVec Ideal S512x512 .bf16) (ix2 l m)
      = Ideal.div (e (ix2 l m)) (∑ m' : Fin 512, e (ix2 l m')) := by
  show Ideal.div (e (ix2 l m)) (broadcastTo S512x512 (shapeCast S512x1 (multiReduction .add [1] S512 e 0x00000000#32 reduces_S512x512_S512 (.inl rfl) rfl) shapeCasts_S512_S512x1) broadcasts_S512x1_S512x512 (ix2 l m)) = _
  refine congrArg (fun x : EReal => Ideal.div (e (ix2 l m)) x) ?_
  refine (col_bcast_apply _ l m).trans ?_
  refine (col_cast_apply _ l (0 : Fin 1)).trans ?_
  exact rowsum_apply e (.inl rfl) rfl l

/-- The scaled, masked scores of the first head: at `(l, m)` the specification's `scoreW` in the head of any
    column `lo d` (the head's lanes are the slab's columns `lo d'`). -/
theorem score_apply (v4 : FVec Ideal S1x512 .f32) (q k : Vec Ideal S512x128 .bf16) (d : Fin 64) (l m : Fin 512) :
    addf (mulf (matmul dot_S512x64_S512x64_S512x512_1_1_0_0_n_n none
          (extractStridedSlice S512x64 ![0, 0] q slices_S512x128_o0_0_S512x64 : FVec Ideal S512x64 .bf16)
          (extractStridedSlice S512x64 ![0, 0] k slices_S512x128_o0_0_S512x64 : FVec Ideal S512x64 .bf16)
          (constant (F := Ideal) S512x512 .f32 0x00000000#32))
        (broadcast S512x512 (Scalar.ofBits (F := Ideal) .f32 0x3E000000#32)))
      (broadcastTo S512x512 v4 broadcasts_S1x512_S512x512) (ix2 l m)
      = scoreW dvd128 (fun l j => q (ix2 l j)) (fun m j => k (ix2 m j)) (fun m => v4 (ix2 (0 : Fin 1) m)) (lo d) l m := by
  show matmul dot_S512x64_S512x64_S512x512_1_1_0_0_n_n none
          (extractStridedSlice S512x64 ![0, 0] q slices_S512x128_o0_0_S512x64 : FVec Ideal S512x64 .bf16)
          (extractStridedSlice S512x64 ![0, 0] k slices_S512x128_o0_0_S512x64 : FVec Ideal S512x64 .bf16)
          (constant (F := Ideal) S512x512 .f32 0x00000000#32) (ix2 l m) * scale
        + broadcastTo S512x512 v4 broadcasts_S1x512_S512x512 (ix2 l m)
      = (∑ d' : Fin 64, q (ix2 l (hcol dvd128 (lo d) d')) * k (ix2 m (hcol dvd128 (lo d) d'))) * scale + v4 (ix2 (0 : Fin 1) m)
  rw [mask_bcast_apply v4 l m]
  refine congrArg (fun x : EReal => x * scale + v4 (ix2 (0 : Fin 1) m)) ?_
  refine (qk_apply _ _ l m).trans ?_
  refine Finset.sum_congr rfl fun d' _ => ?_
  rw [hcol_lo, slice_lo_apply q l d', slice_lo_apply k m d']

end Head0

/-- The first head's context at row `l`, lane `d`. -/
theorem pay3_apply (v4 : FVec Ideal S1x512 .f32) (q k v : Vec Ideal S512x128 .bf16) (l : Fin 512) (d : Fin 64) :
    k0_pay3 (F := Ideal) v4 q k v (ix2 l d)
      = ctxW dvd128 (fun l j => q (ix2 l j)) (fun m j => k (ix2 m j)) (fun m j => v (ix2 m j)) (fun m => v4 (ix2 (0 : Fin 1) m)) l (lo d) := by
  unfold k0_pay3
  refine (Head0.pv_apply _ _ l d).trans ?_
  unfold ctxW
  refine Finset.sum_congr rfl fun m _ => ?_
  refine congrArg₂ (fun x y : EReal => x * y) ?_ (Head0.slice_lo_apply v m d)
  refine (Head0.div_rowsum_apply _ l m).trans ?_
  unfold soft
  have hs : ∀ m' : Fin 512, _ = scoreW dvd128 (fun l j => q (ix2 l j)) (fun m j => k (ix2 m j)) (fun m => v4 (ix2 (0 : Fin 1) m)) (lo d) l m' :=
    fun m' => Head0.score_apply v4 q k d l m'
  have he : ∀ m' : Fin 512, _ = expo (scoreW dvd128 (fun l j => q (ix2 l j)) (fun m j => k (ix2 m j)) (fun m => v4 (ix2 (0 : Fin 1) m)) (lo d) l) m' :=
    fun m' => (Head0.expo_apply _ l m').trans (congrArg (fun f : Fin 512 → EReal => expo f m') (funext hs))
  rw [he m]
  refine congrArg (fun x : EReal => Ideal.div _ x) ?_
  exact Finset.sum_congr rfl fun m' _ => he m'

end Cert.KernelIdeal.Pay

end
-- ==== Proof.KHead1.lean ====
/-
  The second head of a slab, and the slab's payload. The second head's pieces leave the loop's first part as three
  values — the shifted exponentials, their row sums, and v's upper 64 lanes — and the slab's payload finishes it
  (divide, multiply against v) and lays the two heads' contexts side by side in 128 columns. So the payload at
  (l, j) is `Cert.Attn.ctxW` of the slab at column j, whichever head j falls in.
-/
import proofs.«412010_j55800215110214_3_alg».proof.Proof.Gen.KernelIdeal.Skeleton
import proofs.«412010_j55800215110214_3_alg».proof.Proof.Spec
import proofs.«412010_j55800215110214_3_alg».proof.Proof.KHead0
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Attn

/-! ### Layout operations at the head's shapes, read at an index given by coordinates -/

/-- A vector of 512 cast to a column reads, at (l, u), the vector at l. -/
theorem h1_cast_col {α : Type} (x : S512.Idx → α) (h : S512.ShapeCasts S512x1) (l : Fin 512) (u : Fin 1) :
    shapeCast S512x1 x h (ix2 l u) = x (ix1 l) :=
  shapeCast_apply x h _ _ (by
    have hu : u.val = 0 := by omega
    rw [Shape.rowMajor_val_one, Shape.rowMajor_val_two]
    show l.val = l.val * 1 + u.val
    omega)

/-- A column broadcast along the rows' length reads, at (l, m), the column at l. -/
theorem h1_bcast_col {α : Type} (x : S512x1.Idx → α) (h : S512x1.Broadcasts S512x512) (l m : Fin 512) :
    broadcastTo S512x512 x h (ix2 l m) = x (ix2 l (0 : Fin 1)) := by
  refine broadcastTo_apply x h (ix2 l m) (ix2 l (0 : Fin 1)) fun ax => ?_
  match ax with
  | ⟨0, _⟩ =>
    show l.val = if (512 : ℕ) = 1 then 0 else l.val
    rw [if_neg (by decide)]
  | ⟨1, _⟩ => rfl

/-- The slab of 128 columns seen with two unit axes in front reads, at (0, 0, l, j), the slab at (l, j). -/
theorem h1_cast_slab {α : Type} (x : S512x128.Idx → α) (h : S512x128.ShapeCasts S1x1x512x128) (l : Fin 512) (j : Fin 128) :
    shapeCast S1x1x512x128 x h (ix4 (0 : Fin 1) (0 : Fin 1) l j) = x (ix2 l j) :=
  shapeCast_apply x h _ _ (by
    rw [Shape.rowMajor_val_four, Shape.rowMajor_val_two]
    show l.val * 128 + j.val = ((0 * 1 + 0) * 512 + l.val) * 128 + j.val
    omega)

/-- Two blocks of 64 columns side by side read, on the first 64 columns, the first block. -/
theorem h1_cat_lo {α : Type} (x y : S512x64.Idx → α) (h : Shape.Concatenates [S512x64, S512x64] S512x128 1) (l : Fin 512) (d : Fin 64) :
    concatenate S512x128 1 [⟨S512x64, x⟩, ⟨S512x64, y⟩] h (ix2 l (lo d)) = x (ix2 l d) :=
  concatenate_pair_apply_left 1 x y h _ rfl _ (fun b => by
    match b with
    | ⟨0, _⟩ => rfl
    | ⟨1, _⟩ => rfl)

/-- … and on the last 64 columns the second block. -/
theorem h1_cat_hi {α : Type} (x y : S512x64.Idx → α) (h : Shape.Concatenates [S512x64, S512x64] S512x128 1) (l : Fin 512) (d : Fin 64) :
    concatenate S512x128 1 [⟨S512x64, x⟩, ⟨S512x64, y⟩] h (ix2 l (hi d)) = y (ix2 l d) :=
  concatenate_pair_apply_right 1 x y h _ rfl rfl _ (fun b hb => by
    match b with
    | ⟨0, _⟩ => rfl
    | ⟨1, _⟩ => exact absurd rfl hb) (by
    show d.val + 64 = 64 + d.val
    omega)

/-- The upper 64 of 128 columns read, at (l, d), the source at (l, 64 + d). -/
theorem h1_slice_hi {α : Type} (x : S512x128.Idx → α) (h : S512x128.Slices ![0, 64] S512x64) (l : Fin 512) (d : Fin 64) :
    extractStridedSlice S512x64 ![0, 64] x h (ix2 l d) = x (ix2 l (hi d)) :=
  slice2_axis1_apply 64 x h l d (hi d) rfl

/-! ### The two matrix products at an index -/

/-- In the score product the left operand is read at the result's row and the contracted lane, the right operand at the
    result's column and the same lane. -/
theorem h1_qk_lhs_0 (i : S512x512.Idx) (c : dot_S512x64_S512x64_S512x512_1_1_0_0_n_n.contr.Idx) :
    (dot_S512x64_S512x64_S512x512_1_1_0_0_n_n.lhsIdx i c 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem h1_qk_lhs_1 (i : S512x512.Idx) (c : dot_S512x64_S512x64_S512x512_1_1_0_0_n_n.contr.Idx) :
    (dot_S512x64_S512x64_S512x512_1_1_0_0_n_n.lhsIdx i c 1).val = (c ⟨0, by decide⟩).val :=
  dot_S512x64_S512x64_S512x512_1_1_0_0_n_n.lhsIdx_val_of_single rfl i c
theorem h1_qk_rhs_0 (i : S512x512.Idx) (c : dot_S512x64_S512x64_S512x512_1_1_0_0_n_n.contr.Idx) :
    (dot_S512x64_S512x64_S512x512_1_1_0_0_n_n.rhsIdx i c 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem h1_qk_rhs_1 (i : S512x512.Idx) (c : dot_S512x64_S512x64_S512x512_1_1_0_0_n_n.contr.Idx) :
    (dot_S512x64_S512x64_S512x512_1_1_0_0_n_n.rhsIdx i c 1).val = (c ⟨0, by decide⟩).val :=
  dot_S512x64_S512x64_S512x512_1_1_0_0_n_n.rhsIdx_val_of_single rfl i c

/-- Queries against keys, both contracted along their 64 lanes: at (l, m) the sum over the lanes of the two rows' products. -/
theorem h1_qk_apply (x y : FVec Ideal S512x64 .bf16) (l m : Fin 512) :
    matmul dot_S512x64_S512x64_S512x512_1_1_0_0_n_n none x y (constant (F := Ideal) S512x512 .f32 0x00000000#32) (ix2 l m)
      = ∑ d : Fin 64, x (ix2 l d) * y (ix2 m d) := by
  refine (Ideal.matmul_constant_zero_apply dot_S512x64_S512x64_S512x512_1_1_0_0_n_n none x y (ix2 l m)).trans ?_
  rw [← Equiv.sum_comp (contrEquiv1 dot_S512x64_S512x64_S512x512_1_1_0_0_n_n 64 rfl rfl).symm]
  refine Finset.sum_congr rfl fun d _ => ?_
  have hd := contrEquiv1_symm_val dot_S512x64_S512x64_S512x512_1_1_0_0_n_n 64 rfl rfl d
  have el : dot_S512x64_S512x64_S512x512_1_1_0_0_n_n.lhsIdx (ix2 l m) ((contrEquiv1 dot_S512x64_S512x64_S512x512_1_1_0_0_n_n 64 rfl rfl).symm d) = ix2 l d := funext fun a => Fin.ext (by
    match a with
    | ⟨0, _⟩ => exact h1_qk_lhs_0 _ _
    | ⟨1, _⟩ => exact (h1_qk_lhs_1 _ _).trans hd)
  have er : dot_S512x64_S512x64_S512x512_1_1_0_0_n_n.rhsIdx (ix2 l m) ((contrEquiv1 dot_S512x64_S512x64_S512x512_1_1_0_0_n_n 64 rfl rfl).symm d) = ix2 m d := funext fun a => Fin.ext (by
    match a with
    | ⟨0, _⟩ => exact h1_qk_rhs_0 _ _
    | ⟨1, _⟩ => exact (h1_qk_rhs_1 _ _).trans hd)
  rw [el, er]

/-- In the context product the left operand is read at the result's row and the contracted key row, the right operand at
    that key row and the result's lane. -/
theorem h1_pv_lhs_0 (i : S512x64.Idx) (c : dot_S512x512_S512x64_S512x64_1_0_0_1_n_n.contr.Idx) :
    (dot_S512x512_S512x64_S512x64_1_0_0_1_n_n.lhsIdx i c 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem h1_pv_lhs_1 (i : S512x64.Idx) (c : dot_S512x512_S512x64_S512x64_1_0_0_1_n_n.contr.Idx) :
    (dot_S512x512_S512x64_S512x64_1_0_0_1_n_n.lhsIdx i c 1).val = (c ⟨0, by decide⟩).val :=
  dot_S512x512_S512x64_S512x64_1_0_0_1_n_n.lhsIdx_val_of_single rfl i c
theorem h1_pv_rhs_0 (i : S512x64.Idx) (c : dot_S512x512_S512x64_S512x64_1_0_0_1_n_n.contr.Idx) :
    (dot_S512x512_S512x64_S512x64_1_0_0_1_n_n.rhsIdx i c 0).val = (c ⟨0, by decide⟩).val :=
  dot_S512x512_S512x64_S512x64_1_0_0_1_n_n.rhsIdx_val_of_single rfl i c
theorem h1_pv_rhs_1 (i : S512x64.Idx) (c : dot_S512x512_S512x64_S512x64_1_0_0_1_n_n.contr.Idx) :
    (dot_S512x512_S512x64_S512x64_1_0_0_1_n_n.rhsIdx i c 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- Probabilities against values: at (l, d) the sum over the 512 key rows. -/
theorem h1_pv_apply (p : FVec Ideal S512x512 .bf16) (y : FVec Ideal S512x64 .bf16) (l : Fin 512) (d : Fin 64) :
    matmul dot_S512x512_S512x64_S512x64_1_0_0_1_n_n none p y (constant (F := Ideal) S512x64 .f32 0x00000000#32) (ix2 l d)
      = ∑ m : Fin 512, p (ix2 l m) * y (ix2 m d) := by
  refine (Ideal.matmul_constant_zero_apply dot_S512x512_S512x64_S512x64_1_0_0_1_n_n none p y (ix2 l d)).trans ?_
  rw [← Equiv.sum_comp (contrEquiv1 dot_S512x512_S512x64_S512x64_1_0_0_1_n_n 512 rfl rfl).symm]
  refine Finset.sum_congr rfl fun m _ => ?_
  have hm := contrEquiv1_symm_val dot_S512x512_S512x64_S512x64_1_0_0_1_n_n 512 rfl rfl m
  have el : dot_S512x512_S512x64_S512x64_1_0_0_1_n_n.lhsIdx (ix2 l d) ((contrEquiv1 dot_S512x512_S512x64_S512x64_1_0_0_1_n_n 512 rfl rfl).symm m) = ix2 l m := funext fun a => Fin.ext (by
    match a with
    | ⟨0, _⟩ => exact h1_pv_lhs_0 _ _
    | ⟨1, _⟩ => exact (h1_pv_lhs_1 _ _).trans hm)
  have er : dot_S512x512_S512x64_S512x64_1_0_0_1_n_n.rhsIdx (ix2 l d) ((contrEquiv1 dot_S512x512_S512x64_S512x64_1_0_0_1_n_n 512 rfl rfl).symm m) = ix2 m d := funext fun a => Fin.ext (by
    match a with
    | ⟨0, _⟩ => exact (h1_pv_rhs_0 _ _).trans hm
    | ⟨1, _⟩ => exact h1_pv_rhs_1 _ _)
  rw [el, er]

/-! ### The second head's scores, their row maximum, and the shifted exponentials -/

/-- Row l of a [512, 512] array with coordinate m put back on the reduced axis is the index (l, m). -/
theorem h1_lift (h : S512x512.Reduces [1] S512) (l m : Fin 512) : h.lift (ix1 l) m = ix2 l m :=
  funext fun a => Fin.ext (by
    match a with
    | ⟨0, _⟩ => rfl
    | ⟨1, _⟩ => rfl)

/-- The kernel's scores of the second head — the upper 64 lanes of q against those of k, times 1/8, plus the mask row —
    are the specification's scores in the head of slab column 64. -/
theorem h1_score_apply (v4 : FVec Ideal S1x512 .f32) (q k : Vec Ideal S512x128 .bf16) (hs : S512x128.Slices ![0, 64] S512x64)
    (hb : S1x512.Broadcasts S512x512) (l m : Fin 512) :
    addf (mulf (matmul dot_S512x64_S512x64_S512x512_1_1_0_0_n_n none (extractStridedSlice S512x64 ![0, 64] q hs : FVec Ideal S512x64 .bf16)
        (extractStridedSlice S512x64 ![0, 64] k hs : FVec Ideal S512x64 .bf16)
        (constant (F := Ideal) S512x512 .f32 0x00000000#32)) (broadcast S512x512 (Scalar.ofBits (F := Ideal) .f32 0x3E000000#32)))
      (broadcastTo S512x512 v4 hb) (ix2 l m)
      = scoreW dvd128 (fun l j => q (ix2 l j)) (fun m j => k (ix2 m j)) (fun m => v4 (ix2 (0 : Fin 1) m)) (hi (0 : Fin 64)) l m := by
  unfold scoreW
  simp only [hcol_hi]
  refine congrArg₂ (· + ·) (congrArg (· * scale) ?_) (broadcastTo_1b_ab_apply v4 hb l m)
  refine (h1_qk_apply _ _ l m).trans ?_
  refine Finset.sum_congr rfl fun d _ => ?_
  exact congrArg₂ (· * ·) (h1_slice_hi q hs l d) (h1_slice_hi k hs m d)

/-- Subtracting each row's maximum (folded from -∞, kept as a column, spread back along the row) and exponentiating
    gives the row's shifted exponentials. -/
theorem h1_expo_apply (S : FVec Ideal S512x512 .f32) (h : S512x512.Reduces [1] S512) (hφ : FKind.Formats .f32)
    (hacc : (0xFF800000#32 : BitVec FTy.f32.bits) = FKind.maximumf.neutral .f32 hφ) (hc : S512.ShapeCasts S512x1)
    (hb : S512x1.Broadcasts S512x512) (l m : Fin 512) :
    exp (subf S (broadcastTo S512x512 (shapeCast S512x1 (multiReduction .maximumf [1] S512 S 0xFF800000#32 h hφ hacc) hc) hb)) (ix2 l m)
      = expo (fun m' => S (ix2 l m')) m := by
  unfold expo rowMax
  refine congrArg (fun t => Ideal.exp (S (ix2 l m) - t)) ?_
  refine (h1_bcast_col _ hb l m).trans ?_
  refine (h1_cast_col _ hc l 0).trans ?_
  refine (Ideal.multiReduction_maximumf_single S _ h hφ hacc (ix1 l)).trans ?_
  refine congrArg (fun f : Fin 512 → EReal => (Finset.univ : Finset (Fin 512)).fold max negInf f) ?_
  funext m'
  exact congrArg S (h1_lift h l m')

/-- The second head's shifted exponentials at (l, m). -/
theorem pay5_apply (v4 : FVec Ideal S1x512 .f32) (q k : Vec Ideal S512x128 .bf16) (l m : Fin 512) :
    k0_pay5 (F := Ideal) v4 q k (ix2 l m)
      = expo (scoreW dvd128 (fun l j => q (ix2 l j)) (fun m j => k (ix2 m j)) (fun m => v4 (ix2 (0 : Fin 1) m)) (hi (0 : Fin 64)) l) m := by
  unfold k0_pay5
  refine (h1_expo_apply _ _ _ _ _ _ l m).trans ?_
  exact congrArg (fun s => expo s m) (funext fun m' => h1_score_apply v4 q k _ _ l m')

/-- Their row sums. -/
theorem pay6_apply (v4 : FVec Ideal S1x512 .f32) (q k : Vec Ideal S512x128 .bf16) (l : Fin 512) :
    k0_pay6 (F := Ideal) v4 q k (ix2 l (0 : Fin 1))
      = ∑ m' : Fin 512, expo (scoreW dvd128 (fun l j => q (ix2 l j)) (fun m j => k (ix2 m j)) (fun m => v4 (ix2 (0 : Fin 1) m)) (hi (0 : Fin 64)) l) m' := by
  unfold k0_pay6
  refine (h1_cast_col _ _ l 0).trans ?_
  refine (Ideal.multiReduction_add_single (k0_pay5 (F := Ideal) v4 q k) _ reduces_S512x512_S512 _ _ (ix1 l)).trans ?_
  refine Finset.sum_congr rfl fun m' _ => ?_
  exact (congrArg (k0_pay5 (F := Ideal) v4 q k) (h1_lift reduces_S512x512_S512 l m')).trans (pay5_apply v4 q k l m')

/-- The values' upper 64 lanes. -/
theorem pay4_apply (v : Vec Ideal S512x128 .bf16) (m : Fin 512) (d : Fin 64) :
    k0_pay4 (F := Ideal) v (ix2 m d) = v (ix2 m (hi d)) := by
  unfold k0_pay4
  exact h1_slice_hi v _ m d

/-- The slab's payload on the first head's lanes is the first head's context, as it came. -/
theorem pay2_lo (v67 : FVec Ideal S512x64 .f32) (v70 : FVec Ideal S512x64 .bf16) (v80 : FVec Ideal S512x512 .f32)
    (v82 : FVec Ideal S512x1 .f32) (l : Fin 512) (d : Fin 64) :
    k0_pay2 (F := Ideal) v67 v70 v80 v82 (ix4 (0 : Fin 1) (0 : Fin 1) l (lo d)) = v67 (ix2 l d) := by
  unfold k0_pay2
  refine (h1_cast_slab _ _ l (lo d)).trans ?_
  exact h1_cat_lo _ _ _ l d

/-- … and on the second head's lanes the probabilities (exponentials over their row sum) against the values. -/
theorem pay2_hi (v67 : FVec Ideal S512x64 .f32) (v70 : FVec Ideal S512x64 .bf16) (v80 : FVec Ideal S512x512 .f32)
    (v82 : FVec Ideal S512x1 .f32) (l : Fin 512) (d : Fin 64) :
    k0_pay2 (F := Ideal) v67 v70 v80 v82 (ix4 (0 : Fin 1) (0 : Fin 1) l (hi d))
      = ∑ m : Fin 512, Ideal.div (v80 (ix2 l m)) (v82 (ix2 l (0 : Fin 1))) * v70 (ix2 m d) := by
  unfold k0_pay2
  refine (h1_cast_slab _ _ l (hi d)).trans ?_
  refine (h1_cat_hi _ _ _ l d).trans ?_
  refine (h1_pv_apply _ _ l d).trans ?_
  refine Finset.sum_congr rfl fun m _ => ?_
  refine congrArg (fun t => Ideal.div (v80 (ix2 l m)) t * v70 (ix2 m d)) ?_
  exact h1_bcast_col v82 _ l m

/-- One loop trip's stored slab at row `l`, slab column `j`: the slab's attention there. -/
theorem slab_apply (v4 : FVec Ideal S1x512 .f32) (q k v : Vec Ideal S512x128 .bf16) (l : Fin 512) (j : Fin 128) :
    k0_pay2 (F := Ideal) (k0_pay3 v4 q k v) (k0_pay4 v) (k0_pay5 v4 q k) (k0_pay6 v4 q k) (ix4 (0 : Fin 1) (0 : Fin 1) l j)
      = ctxW dvd128 (fun l j => q (ix2 l j)) (fun m j => k (ix2 m j)) (fun m j => v (ix2 m j)) (fun m => v4 (ix2 (0 : Fin 1) m)) l j := by
  rcases lo_or_hi j with ⟨d, rfl⟩ | ⟨d, rfl⟩
  · exact (pay2_lo _ _ _ _ l d).trans (pay3_apply v4 q k v l d)
  · refine (pay2_hi _ _ _ _ l d).trans ?_
    unfold ctxW soft
    have hh : scoreW dvd128 (fun l j => q (ix2 l j)) (fun m j => k (ix2 m j)) (fun m => v4 (ix2 (0 : Fin 1) m)) (hi d)
        = scoreW dvd128 (fun l j => q (ix2 l j)) (fun m j => k (ix2 m j)) (fun m => v4 (ix2 (0 : Fin 1) m)) (hi (0 : Fin 64)) :=
      scoreW_congr dvd128 _ _ _ (hi d) (hi (0 : Fin 64)) (by
        show (64 + d.val) / 64 = (64 + 0) / 64
        have := d.isLt
        omega)
    rw [hh]
    refine Finset.sum_congr rfl fun m _ => ?_
    rw [pay5_apply, pay6_apply, pay4_apply]

end Cert.KernelIdeal.Pay

end
-- ==== Proof.KTrip.lean ====
/-
  The loop's pieces. The body's run leaves in the output's staging buffer the pieces of its six loop trips and nothing
  else. Before the loop each scratch buffer holds one whole-extent store of a projection (over whatever was there), and the
  mask row is the staged mask block with its unit axes dropped. Trip k loads columns [128·k, 128·k + 128) of each scratch
  buffer and stores ONE piece: the slab payload of those three loads, at columns [128·k, 128·k + 128) of the block.
-/
import proofs.«412010_j55800215110214_3_alg».proof.Proof.Gen.KernelIdeal.Frame
import proofs.«412010_j55800215110214_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

namespace Cert.KernelIdeal.Pay

open Cert.KernelIdeal Cert.KernelIdeal.Gen Idealize.ShloMosaic Idealize.ShloMosaic.TcCoe Idealize.ShloMosaic.Tactic
open Idealize.SL.Sem Idealize.ShloMosaic.ValueIdx Cert.Attn

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl
theorem zero5 : (![0, 0, 0, 0, 0] : Fin 5 → Nat) = fun _ => 0 := funext fun a => by fin_cases a <;> rfl

/-- A scratch buffer after one whole-extent store of `w`, over junk. -/
abbrev scr (arg : Memref sig .tc .vmem S512x768 .bf16) (w : FVec F S512x768 .bf16) : BufTy.Contents (Elt F) arg.view.ty :=
  arg.view.writes (Elt F) arg.view.junk [⟨Rect.unit ![0, 0] S512x768.size inb_S512x768_S512x768_0_0, w⟩]

/-- Columns [128·k, 128·k + 128) of a scratch buffer, as trip `k` loads them. -/
abbrev slabOf (arg : Memref sig .tc .vmem S512x768 .bf16) (X : BufTy.Contents (Elt F) arg.view.ty) (k : Fin k0_t1_loop.trips) :
    Vec F S512x128 .bf16 :=
  arg.view.readAt (Elt F) (Rect.unit (s := S512x768) (k0_off1 k) S512x128.size (k0_off1_inb k)).toLoadRect X

/-- The run's pieces are the loop's, over the mask row and the three projections in scratch. -/
theorem run_pieces (c : Dev nD) (i : grid0.Coords) (arg2 : Memref sig .tc .vmem S1x1x512x768 .bf16) (harg2 : arg2.IsWhole) (arg3 : Memref sig .tc .vmem S1x1x1x1x512 .f32) (harg3 : arg3.IsWhole) (arg4 : Memref sig .tc .vmem S1x768x768 .bf16) (harg4 : arg4.IsWhole) (arg5 : Memref sig .tc .vmem S1x1x768 .f32) (harg5 : arg5.IsWhole) (arg6 : Memref sig .tc .vmem S1x768x768 .bf16) (harg6 : arg6.IsWhole) (arg7 : Memref sig .tc .vmem S1x1x768 .f32) (harg7 : arg7.IsWhole) (arg8 : Memref sig .tc .vmem S1x768x768 .bf16) (harg8 : arg8.IsWhole) (arg9 : Memref sig .tc .vmem S1x1x768 .f32) (harg9 : arg9.IsWhole) (arg10 : Memref sig .tc .vmem S1x1x512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S512x768 .bf16) (harg13 : arg13.IsWhole) (x0 : Vec F S1x1x512x768 .bf16) (x1 : Vec F S1x1x1x1x512 .f32) (x2 : Vec F S1x768x768 .bf16) (x3 : Vec F S1x1x768 .f32) (x4 : Vec F S1x768x768 .bf16) (x5 : Vec F S1x1x768 .f32) (x6 : Vec F S1x768x768 .bf16) (x7 : Vec F S1x1x768 .f32) :
    (kernelRun0_A (F := F) c i arg2 harg2 arg3 harg3 arg4 harg4 arg5 harg5 arg6 harg6 arg7 harg7 arg8 harg8 arg9 harg9 arg10 harg10 arg11 harg11 arg12 harg12 arg13 harg13 x0 x1 x2 x3 x4 x5 x6 x7).1
      = pb_k0_t1 (F := F) Variants.none c none i arg2 harg2 arg3 harg3 arg4 harg4 arg5 harg5 arg6 harg6 arg7 harg7 arg8 harg8 arg9 harg9 arg10 harg10 arg11 harg11 arg12 harg12 arg13 harg13 (k0_pay8 x1)
          (scr arg11 (k0_pay9 x0 x2 x3)) (scr arg12 (k0_pay10 x0 x4 x5)) (scr arg13 (k0_pay1 (k0_pay7 x0) x6 x7))
          (Scf.trips (0#32) (Scalar.addi 0#32 6#32) 1#32) := by
  unfold kernelRun0_A
  dsimp only
  sl_unfold_words
  simp only [View.readAt_eq_ld, harg2.read_unread, harg3.read_unread, harg4.read_unread, harg5.read_unread, harg6.read_unread,
    harg7.read_unread, harg8.read_unread, harg9.read_unread, View.ld_unit_zero (S := S1x1x512x768) zero4,
    View.ld_unit_zero (S := S1x1x1x1x512) zero5, View.ld_unit_zero (S := S1x768x768) zero3, View.ld_unit_zero (S := S1x1x768) zero3]

/-- Trip `k` leaves one piece: the slab payload of its three loads, stored at the trip's columns. -/
theorem trip_pieces (𝒱 : Variants) (c : Dev nD) (bd : Option 𝒱.V) (i : grid0.Coords) (arg2 : Memref sig .tc .vmem S1x1x512x768 .bf16) (harg2 : arg2.IsWhole) (arg3 : Memref sig .tc .vmem S1x1x1x1x512 .f32) (harg3 : arg3.IsWhole) (arg4 : Memref sig .tc .vmem S1x768x768 .bf16) (harg4 : arg4.IsWhole) (arg5 : Memref sig .tc .vmem S1x1x768 .f32) (harg5 : arg5.IsWhole) (arg6 : Memref sig .tc .vmem S1x768x768 .bf16) (harg6 : arg6.IsWhole) (arg7 : Memref sig .tc .vmem S1x1x768 .f32) (harg7 : arg7.IsWhole) (arg8 : Memref sig .tc .vmem S1x768x768 .bf16) (harg8 : arg8.IsWhole) (arg9 : Memref sig .tc .vmem S1x1x768 .f32) (harg9 : arg9.IsWhole) (arg10 : Memref sig .tc .vmem S1x1x512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S512x768 .bf16) (harg13 : arg13.IsWhole) (v4 : FVec F S1x512 .f32) (X_arg11 : BufTy.Contents (Elt F) arg11.view.ty) (X_arg12 : BufTy.Contents (Elt F) arg12.view.ty) (X_arg13 : BufTy.Contents (Elt F) arg13.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 v4 X_arg11 X_arg12 X_arg13 k
      = [⟨Rect.unit (s := S1x1x512x768) (k0_off2 k) S1x1x512x128.size (k0_off2_inb k),
          k0_pay2 (k0_pay3 v4 (slabOf arg11 X_arg11 k) (slabOf arg12 X_arg12 k) (slabOf arg13 X_arg13 k)) (k0_pay4 (slabOf arg13 X_arg13 k))
            (k0_pay5 v4 (slabOf arg11 X_arg11 k) (slabOf arg12 X_arg12 k)) (k0_pay6 v4 (slabOf arg11 X_arg11 k) (slabOf arg12 X_arg12 k))⟩] := by
  unfold tripL_k0_t1
  unfold trip_k0_t1
  dsimp only
  sl_unfold_run_names
  rfl

/-- Every piece of the loop's recursion is some trip's. -/
theorem mem_pb (𝒱 : Variants) (c : Dev nD) (bd : Option 𝒱.V) (i : grid0.Coords) (arg2 : Memref sig .tc .vmem S1x1x512x768 .bf16) (harg2 : arg2.IsWhole) (arg3 : Memref sig .tc .vmem S1x1x1x1x512 .f32) (harg3 : arg3.IsWhole) (arg4 : Memref sig .tc .vmem S1x768x768 .bf16) (harg4 : arg4.IsWhole) (arg5 : Memref sig .tc .vmem S1x1x768 .f32) (harg5 : arg5.IsWhole) (arg6 : Memref sig .tc .vmem S1x768x768 .bf16) (harg6 : arg6.IsWhole) (arg7 : Memref sig .tc .vmem S1x1x768 .f32) (harg7 : arg7.IsWhole) (arg8 : Memref sig .tc .vmem S1x768x768 .bf16) (harg8 : arg8.IsWhole) (arg9 : Memref sig .tc .vmem S1x1x768 .f32) (harg9 : arg9.IsWhole) (arg10 : Memref sig .tc .vmem S1x1x512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S512x768 .bf16) (harg13 : arg13.IsWhole) (v4 : FVec F S1x512 .f32) (X_arg11 : BufTy.Contents (Elt F) arg11.view.ty) (X_arg12 : BufTy.Contents (Elt F) arg12.view.ty) (X_arg13 : BufTy.Contents (Elt F) arg13.view.ty) :
    ∀ (n : ℕ) (p : View.Piece (Elt F) S1x1x512x768 .f32), p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 v4 X_arg11 X_arg12 X_arg13 n →
      ∃ k : Fin k0_t1_loop.trips, p ∈ tripL_k0_t1 (F := F) 𝒱 c bd i arg2 harg2 arg3 harg3 arg4 harg4 arg5 harg5 arg6 harg6 arg7 harg7 arg8 harg8 arg9 harg9 arg10 harg10 arg11 harg11 arg12 harg12 arg13 harg13 v4 X_arg11 X_arg12 X_arg13 k
  | 0, p, hp => by rw [pb_k0_t1.eq_1] at hp; exact absurd hp List.not_mem_nil
  | n + 1, p, hp => by
    rw [pb_k0_t1.eq_2] at hp
    unfold pb_k0_t1Step at hp
    by_cases h : n < k0_t1_loop.trips
    · rw [dif_pos h] at hp
      rcases List.mem_append.mp hp with h1 | h2
      · exact ⟨⟨n, h⟩, h1⟩
      · exact mem_pb 𝒱 c bd i arg2 harg2 arg3 harg3 arg4 harg4 arg5 harg5 arg6 harg6 arg7 harg7 arg8 harg8 arg9 harg9 arg10 harg10 arg11 harg11 arg12 harg12 arg13 harg13 v4 X_arg11 X_arg12 X_arg13 n p h2
    · rw [dif_neg h] at hp
      exact mem_pb 𝒱 c bd i arg2 harg2 arg3 harg3 arg4 harg4 arg5 harg5 arg6 harg6 arg7 harg7 arg8 harg8 arg9 harg9 arg10 harg10 arg11 harg11 arg12 harg12 arg13 harg13 v4 X_arg11 X_arg12 X_arg13 n p hp

end Cert.KernelIdeal.Pay

end
-- ==== Proof.KBlock.lean ====
/-
  One grid point's output block. The body first stores the three projections whole into its scratch buffers, then for each
  of six slabs of 128 columns loads that slab of q, k, v back, computes the slab's two heads and stores the result at the
  slab's columns of the output block. The six slabs tile the block, each stored slab is the block's attention at its own
  columns (a slab is self-contained: `Cert.Attn.ctxW_slab`), so the block read back is `Cert.Attn.attn` of the staged blocks.
-/
import proofs.«412010_j55800215110214_3_alg».proof.Proof.Gen.KernelIdeal.Frame
import proofs.«412010_j55800215110214_3_alg».proof.Proof.Spec
import proofs.«412010_j55800215110214_3_alg».proof.Proof.KProj
import proofs.«412010_j55800215110214_3_alg».proof.Proof.KHead1
import proofs.«412010_j55800215110214_3_alg».proof.Proof.KTrip
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

namespace Cert.KernelIdeal.Pay

open Cert.KernelIdeal Cert.KernelIdeal.Gen Idealize.ShloMosaic Idealize.ShloMosaic.TcCoe Idealize.ShloMosaic.ValueIdx Idealize.SL.Sem Cert.Attn

/-- The loop's trip `k`, as one of the six slabs. -/
def tripIdx (k : Fin k0_t1_loop.trips) : Fin 6 := ⟨k.val, Nat.lt_of_lt_of_le k.isLt k0_t1_abs.2.1⟩

/-- Trip `k`'s load of a scratch buffer that holds `w` whole is `w` at the slab's columns: entry (l, j) is w[l, 128·k + j]. -/
theorem slabOf_scr {F : FTy → Type} [FloatOps F] (arg : Memref sig .tc .vmem S512x768 .bf16) (w : FVec F S512x768 .bf16)
    (k : Fin k0_t1_loop.trips) (l : Fin 512) (j : Fin 128) :
    slabOf arg (scr arg w) k (ix2 l j) = w (ix2 l (slabCol (tripIdx k) j)) := by
  unfold slabOf scr
  rw [View.readAt_writes_junk_eq_canon, View.canon_unit_zero (S := S512x768) zero2]
  refine congrArg w (funext fun a => Fin.ext ?_)
  have e := k0_off1_eq k
  match a with
  | ⟨0, _⟩ =>
    show (k0_off1 k) 0 + 1 * l.val = l.val
    rw [e]; show 0 + 1 * l.val = l.val; omega
  | ⟨1, _⟩ =>
    show (k0_off1 k) 1 + 1 * j.val = k.val * 128 + j.val
    rw [e]; show 128 * k.val + 1 * j.val = k.val * 128 + j.val; omega

/-- The piece trip `k` stores, at row `l` and slab column `j`: the block's attention at column 128·k + j. The slab's
    attention is computed from the slab's columns of the three projections alone, and a column's head lies inside its slab. -/
theorem trip_value (x0 : Vec Ideal S1x1x512x768 .bf16) (x1 : Vec Ideal S1x1x1x1x512 .f32) (x2 : Vec Ideal S1x768x768 .bf16) (x3 : Vec Ideal S1x1x768 .f32) (x4 : Vec Ideal S1x768x768 .bf16) (x5 : Vec Ideal S1x1x768 .f32) (x6 : Vec Ideal S1x768x768 .bf16) (x7 : Vec Ideal S1x1x768 .f32)
    (arg11 arg12 arg13 : Memref sig .tc .vmem S512x768 .bf16) (k : Fin k0_t1_loop.trips) (l : Fin 512) (j : Fin 128) :
    k0_pay2 (F := Ideal) (k0_pay3 (k0_pay8 x1) (slabOf arg11 (scr arg11 (k0_pay9 x0 x2 x3)) k) (slabOf arg12 (scr arg12 (k0_pay10 x0 x4 x5)) k) (slabOf arg13 (scr arg13 (k0_pay1 (k0_pay7 x0) x6 x7)) k)) (k0_pay4 (slabOf arg13 (scr arg13 (k0_pay1 (k0_pay7 x0) x6 x7)) k))
        (k0_pay5 (k0_pay8 x1) (slabOf arg11 (scr arg11 (k0_pay9 x0 x2 x3)) k) (slabOf arg12 (scr arg12 (k0_pay10 x0 x4 x5)) k)) (k0_pay6 (k0_pay8 x1) (slabOf arg11 (scr arg11 (k0_pay9 x0 x2 x3)) k) (slabOf arg12 (scr arg12 (k0_pay10 x0 x4 x5)) k)) (ix4 (0 : Fin 1) (0 : Fin 1) l j)
      = attn (hsB (G := 1) (B := 1) x0 (0 : Fin 1) (0 : Fin 1)) (maskB (G := 1) (B := 1) x1 (0 : Fin 1) (0 : Fin 1)) (wB (G := 1) x2 (0 : Fin 1)) (bB (G := 1) x3 (0 : Fin 1))
          (wB (G := 1) x4 (0 : Fin 1)) (bB (G := 1) x5 (0 : Fin 1)) (wB (G := 1) x6 (0 : Fin 1)) (bB (G := 1) x7 (0 : Fin 1)) l (slabCol (tripIdx k) j) := by
  rw [slab_apply]
  simp only [slabOf_scr, pay9_apply, pay10_apply, pay1_apply, pay8_apply]
  exact ctxW_slab (proj (hsB (G := 1) (B := 1) x0 (0 : Fin 1) (0 : Fin 1)) (wB (G := 1) x2 (0 : Fin 1)) (bB (G := 1) x3 (0 : Fin 1))) (proj (hsB (G := 1) (B := 1) x0 (0 : Fin 1) (0 : Fin 1)) (wB (G := 1) x4 (0 : Fin 1)) (bB (G := 1) x5 (0 : Fin 1))) (proj (hsB (G := 1) (B := 1) x0 (0 : Fin 1) (0 : Fin 1)) (wB (G := 1) x6 (0 : Fin 1)) (bB (G := 1) x7 (0 : Fin 1))) (maskB (G := 1) (B := 1) x1 (0 : Fin 1) (0 : Fin 1)) (tripIdx k) l j

/-- The block's attention as a function of the block's index (its two leading coordinates are zero). -/
abbrev blockFn (x0 : Vec Ideal S1x1x512x768 .bf16) (x1 : Vec Ideal S1x1x1x1x512 .f32) (x2 : Vec Ideal S1x768x768 .bf16) (x3 : Vec Ideal S1x1x768 .f32) (x4 : Vec Ideal S1x768x768 .bf16) (x5 : Vec Ideal S1x1x768 .f32) (x6 : Vec Ideal S1x768x768 .bf16) (x7 : Vec Ideal S1x1x768 .f32) : S1x1x512x768.Idx → EReal := fun y =>
  attn (hsB (G := 1) (B := 1) x0 (0 : Fin 1) (0 : Fin 1)) (maskB (G := 1) (B := 1) x1 (0 : Fin 1) (0 : Fin 1)) (wB (G := 1) x2 (0 : Fin 1)) (bB (G := 1) x3 (0 : Fin 1))
    (wB (G := 1) x4 (0 : Fin 1)) (bB (G := 1) x5 (0 : Fin 1)) (wB (G := 1) x6 (0 : Fin 1)) (bB (G := 1) x7 (0 : Fin 1)) (y 2) (y 3)

/-- What the body leaves in the output's staging buffer, at row `l`, column `n` of the block. -/
theorem block_apply (c : Dev nD) (i : grid0.Coords) (arg2 : Memref sig .tc .vmem S1x1x512x768 .bf16) (harg2 : arg2.IsWhole) (arg3 : Memref sig .tc .vmem S1x1x1x1x512 .f32) (harg3 : arg3.IsWhole) (arg4 : Memref sig .tc .vmem S1x768x768 .bf16) (harg4 : arg4.IsWhole) (arg5 : Memref sig .tc .vmem S1x1x768 .f32) (harg5 : arg5.IsWhole) (arg6 : Memref sig .tc .vmem S1x768x768 .bf16) (harg6 : arg6.IsWhole) (arg7 : Memref sig .tc .vmem S1x1x768 .f32) (harg7 : arg7.IsWhole) (arg8 : Memref sig .tc .vmem S1x768x768 .bf16) (harg8 : arg8.IsWhole) (arg9 : Memref sig .tc .vmem S1x1x768 .f32) (harg9 : arg9.IsWhole) (arg10 : Memref sig .tc .vmem S1x1x512x768 .f32) (harg10 : arg10.IsWhole) (arg11 : Memref sig .tc .vmem S512x768 .bf16) (harg11 : arg11.IsWhole) (arg12 : Memref sig .tc .vmem S512x768 .bf16) (harg12 : arg12.IsWhole) (arg13 : Memref sig .tc .vmem S512x768 .bf16) (harg13 : arg13.IsWhole) (x0 : Vec Ideal S1x1x512x768 .bf16) (x1 : Vec Ideal S1x1x1x1x512 .f32) (x2 : Vec Ideal S1x768x768 .bf16) (x3 : Vec Ideal S1x1x768 .f32) (x4 : Vec Ideal S1x768x768 .bf16) (x5 : Vec Ideal S1x1x768 .f32) (x6 : Vec Ideal S1x768x768 .bf16) (x7 : Vec Ideal S1x1x768 .f32)
    (l : Fin 512) (n : Fin 768) :
    out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix4 (0 : Fin 1) (0 : Fin 1) l n)
      = attn (hsB (G := 1) (B := 1) x0 (0 : Fin 1) (0 : Fin 1)) (maskB (G := 1) (B := 1) x1 (0 : Fin 1) (0 : Fin 1)) (wB (G := 1) x2 (0 : Fin 1)) (bB (G := 1) x3 (0 : Fin 1))
        (wB (G := 1) x4 (0 : Fin 1)) (bB (G := 1) x5 (0 : Fin 1)) (wB (G := 1) x6 (0 : Fin 1)) (bB (G := 1) x7 (0 : Fin 1)) l n := by
  unfold out0_A_8
  rw [View.read_writes_junk_eq_canon]
  refine View.canon_apply_of_pieces (blockFn x0 x1 x2 x3 x4 x5 x6 x7) _ ?_ (ix4 (0 : Fin 1) (0 : Fin 1) l n)
    (cover0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix4 (0 : Fin 1) (0 : Fin 1) l n))
  intro p hp x
  rw [run_pieces] at hp
  obtain ⟨k, hk⟩ := mem_pb (F := Ideal) Variants.none c none i arg2 harg2 arg3 harg3 arg4 harg4 arg5 harg5 arg6 harg6 arg7 harg7 arg8 harg8 arg9 harg9 arg10 harg10 arg11 harg11 arg12 harg12 arg13 harg13 (k0_pay8 x1)
    (scr arg11 (k0_pay9 x0 x2 x3)) (scr arg12 (k0_pay10 x0 x4 x5)) (scr arg13 (k0_pay1 (k0_pay7 x0) x6 x7)) _ p hp
  rw [trip_pieces] at hk
  obtain rfl := List.mem_singleton.mp hk
  obtain ⟨a, b, l', j, rfl⟩ : ∃ (a b : Fin 1) (l' : Fin 512) (j : Fin 128), x = ix4 a b l' j := ⟨x 0, x 1, x 2, x 3, eq_ix4 x⟩
  obtain rfl : a = 0 := Subsingleton.elim _ _
  obtain rfl : b = 0 := Subsingleton.elim _ _
  refine (trip_value x0 x1 x2 x3 x4 x5 x6 x7 arg11 arg12 arg13 k l' j).trans ?_
  have e := k0_off2_eq k
  show attn _ _ _ _ _ _ _ _ l' (slabCol (tripIdx k) j) = attn _ _ _ _ _ _ _ _ _ _
  congr 1
  · apply Fin.ext
    show l'.val = (k0_off2 k) 2 + 1 * l'.val
    rw [e]; show l'.val = 0 + 1 * l'.val; omega
  · apply Fin.ext
    show k.val * 128 + j.val = (k0_off2 k) 3 + 1 * j.val
    rw [e]; show k.val * 128 + j.val = 128 * k.val + 1 * j.val; omega

end Cert.KernelIdeal.Pay

end
-- ==== Proof.KArray.lean ====
/-
  From blocks to the array. The host narrows the hidden states and the three weights to bf16 before the call (the identity
  on extended reals), so each staged block read at an index is the argument array at block index × block size + the
  index. Grid point (g, b) writes back block (g, b, ·, ·) of the result, the sixteen blocks cover the array, and each is
  `Cert.Attn.attn` of the staged blocks: the result array is `Cert.Attn.out` of the arguments.
-/
import proofs.«412010_j55800215110214_3_alg».proof.Proof.Gen.KernelIdeal.Value
import proofs.«412010_j55800215110214_3_alg».proof.Proof.Spec
import proofs.«412010_j55800215110214_3_alg».proof.Proof.KBlock
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.KernelIdeal.ArrValue

open Cert.KernelIdeal Cert.KernelIdeal.Gen Cert.KernelIdeal.Value Idealize.ShloMosaic Idealize.ShloMosaic.TcCoe
open Idealize.ShloMosaic.ValueIdx Idealize.SL.Sem Cert.Attn
open Idealize.ShloMosaic.Pipeline (Dat)

variable (m : (ℓ : Loc nD τ sig) → Buf (Elt Ideal) ℓ) (ρ : Dev nD → PrngReg)

/-! ## The index maps, decided over the sixteen grid points

Grid point `t` has coordinates (g, b). The result's window takes block (g, b, 0, 0); the hidden states and the mask take
the same leading block indices, the weights and biases take block (g, 0, 0). -/

/-- The result's block index: both leading entries below 4, the two trailing ones 0. -/
theorem index8 : ∀ t : Fin cfg0.N,
    win0_8.index t (0 : Fin 4) ≤ 3 ∧ win0_8.index t (1 : Fin 4) ≤ 3
    ∧ win0_8.index t (2 : Fin 4) = 0 ∧ win0_8.index t (3 : Fin 4) = 0 :=
  (by decide +kernel : ∀ t : Fin grid0.N, _)

/-- Every pair (g, b) is some grid point's block index. -/
theorem index8_onto : ∀ (g b : Fin 4), ∃ t : Fin cfg0.N, win0_8.index t = ![g.val, b.val, 0, 0] :=
  (by decide +kernel : ∀ (g b : Fin 4), ∃ t : Fin grid0.N, win0_8.index t = ![g.val, b.val, 0, 0])

/-- The hidden states' block index is the result's. -/
theorem index0 : ∀ t : Fin cfg0.N,
    win0_0.index t (0 : Fin 4) = win0_8.index t (0 : Fin 4) ∧ win0_0.index t (1 : Fin 4) = win0_8.index t (1 : Fin 4)
    ∧ win0_0.index t (2 : Fin 4) = 0 ∧ win0_0.index t (3 : Fin 4) = 0 :=
  (by decide +kernel : ∀ t : Fin grid0.N, _)

/-- The mask's block index: the result's two leading entries, then zeros. -/
theorem index1 : ∀ t : Fin cfg0.N,
    win0_1.index t (0 : Fin 5) = win0_8.index t (0 : Fin 4) ∧ win0_1.index t (1 : Fin 5) = win0_8.index t (1 : Fin 4)
    ∧ win0_1.index t (2 : Fin 5) = 0 ∧ win0_1.index t (3 : Fin 5) = 0 ∧ win0_1.index t (4 : Fin 5) = 0 :=
  (by decide +kernel : ∀ t : Fin grid0.N, _)

/-- Window 2's block index: the result's group, then zeros. -/
theorem index2 : ∀ t : Fin cfg0.N,
    win0_2.index t (0 : Fin 3) = win0_8.index t (0 : Fin 4) ∧ win0_2.index t (1 : Fin 3) = 0 ∧ win0_2.index t (2 : Fin 3) = 0 :=
  (by decide +kernel : ∀ t : Fin grid0.N, _)

/-- Window 3's block index: the result's group, then zeros. -/
theorem index3 : ∀ t : Fin cfg0.N,
    win0_3.index t (0 : Fin 3) = win0_8.index t (0 : Fin 4) ∧ win0_3.index t (1 : Fin 3) = 0 ∧ win0_3.index t (2 : Fin 3) = 0 :=
  (by decide +kernel : ∀ t : Fin grid0.N, _)

/-- Window 4's block index: the result's group, then zeros. -/
theorem index4 : ∀ t : Fin cfg0.N,
    win0_4.index t (0 : Fin 3) = win0_8.index t (0 : Fin 4) ∧ win0_4.index t (1 : Fin 3) = 0 ∧ win0_4.index t (2 : Fin 3) = 0 :=
  (by decide +kernel : ∀ t : Fin grid0.N, _)

/-- Window 5's block index: the result's group, then zeros. -/
theorem index5 : ∀ t : Fin cfg0.N,
    win0_5.index t (0 : Fin 3) = win0_8.index t (0 : Fin 4) ∧ win0_5.index t (1 : Fin 3) = 0 ∧ win0_5.index t (2 : Fin 3) = 0 :=
  (by decide +kernel : ∀ t : Fin grid0.N, _)

/-- Window 6's block index: the result's group, then zeros. -/
theorem index6 : ∀ t : Fin cfg0.N,
    win0_6.index t (0 : Fin 3) = win0_8.index t (0 : Fin 4) ∧ win0_6.index t (1 : Fin 3) = 0 ∧ win0_6.index t (2 : Fin 3) = 0 :=
  (by decide +kernel : ∀ t : Fin grid0.N, _)

/-- Window 7's block index: the result's group, then zeros. -/
theorem index7 : ∀ t : Fin cfg0.N,
    win0_7.index t (0 : Fin 3) = win0_8.index t (0 : Fin 4) ∧ win0_7.index t (1 : Fin 3) = 0 ∧ win0_7.index t (2 : Fin 3) = 0 :=
  (by decide +kernel : ∀ t : Fin grid0.N, _)

/-! ## The narrowed arrays

Narrowing to bf16 is the identity on extended reals: the arrays the region finds for the hidden states and the three
weights are the arguments themselves. -/

theorem narrowed0 (c : Dev nD) : (V m c main_v0 : S4x4x512x768.Idx → EReal) = (m ((c : Thread nD τ).loc main_arg0) : S4x4x512x768.Idx → EReal) := by
  dsimp only [V, hostOps0]; after_results; rfl

theorem narrowed1 (c : Dev nD) : (V m c main_v1 : S4x768x768.Idx → EReal) = (m ((c : Thread nD τ).loc main_arg2) : S4x768x768.Idx → EReal) := by
  dsimp only [V, hostOps0]; after_results; rfl

theorem narrowed2 (c : Dev nD) : (V m c main_v2 : S4x768x768.Idx → EReal) = (m ((c : Thread nD τ).loc main_arg4) : S4x768x768.Idx → EReal) := by
  dsimp only [V, hostOps0]; after_results; rfl

theorem narrowed3 (c : Dev nD) : (V m c main_v3 : S4x768x768.Idx → EReal) = (m ((c : Thread nD τ).loc main_arg6) : S4x768x768.Idx → EReal) := by
  dsimp only [V, hostOps0]; after_results; rfl

/-! ## Each staged block is the argument's block

A block's element at coordinate y sits in the array at block index × block size + y, on every axis. -/

/-- The staged hidden states at point (g, b) are rows and columns of group g, batch b of the argument. -/
theorem hs_block (c : Dev nD) (t : Fin cfg0.N) (g b : Fin 4)
    (hg : g.val = win0_8.index t (0 : Fin 4)) (hb : b.val = win0_8.index t (1 : Fin 4)) :
    hsB (G := 1) (B := 1) (iblk (F := Ideal) m c 0 t) (0 : Fin 1) (0 : Fin 1)
      = hsB (G := 4) (B := 4) (m ((c : Thread nD τ).loc main_arg0)) g b := by
  obtain ⟨e0, e1, e2, e3⟩ := index0 t
  funext l k
  show V m c main_v0 (((cfg0.win 0).blk t).view.emb (ix4 (0 : Fin 1) (0 : Fin 1) l k)) = m ((c : Thread nD τ).loc main_arg0) (ix4 g b l k)
  refine (congrFun (narrowed0 m c) _).trans ?_
  congr 1
  funext a; apply Fin.ext
  match a with
  | ⟨0, _⟩ => show win0_0.index t (0 : Fin 4) * 1 + 1 * 0 = g.val; omega
  | ⟨1, _⟩ => show win0_0.index t (1 : Fin 4) * 1 + 1 * 0 = b.val; omega
  | ⟨2, _⟩ => show win0_0.index t (2 : Fin 4) * 512 + 1 * l.val = l.val; omega
  | ⟨3, _⟩ => show win0_0.index t (3 : Fin 4) * 768 + 1 * k.val = k.val; omega

/-- The staged mask row at point (g, b) is the argument's row for group g, batch b. -/
theorem mask_block (c : Dev nD) (t : Fin cfg0.N) (g b : Fin 4)
    (hg : g.val = win0_8.index t (0 : Fin 4)) (hb : b.val = win0_8.index t (1 : Fin 4)) :
    maskB (G := 1) (B := 1) (iblk (F := Ideal) m c 1 t) (0 : Fin 1) (0 : Fin 1)
      = maskB (G := 4) (B := 4) (m ((c : Thread nD τ).loc main_arg1)) g b := by
  obtain ⟨e0, e1, e2, e3, e4⟩ := index1 t
  funext k
  show V m c main_arg1 (((cfg0.win 1).blk t).view.emb (ix5 (0 : Fin 1) (0 : Fin 1) (0 : Fin 1) (0 : Fin 1) k)) = m ((c : Thread nD τ).loc main_arg1) (ix5 g b (0 : Fin 1) (0 : Fin 1) k)
  refine (congrFun (V_main_arg1 m c) _).trans ?_
  congr 1
  funext a; apply Fin.ext
  match a with
  | ⟨0, _⟩ => show win0_1.index t (0 : Fin 5) * 1 + 1 * 0 = g.val; omega
  | ⟨1, _⟩ => show win0_1.index t (1 : Fin 5) * 1 + 1 * 0 = b.val; omega
  | ⟨2, _⟩ => show win0_1.index t (2 : Fin 5) * 1 + 1 * 0 = 0; omega
  | ⟨3, _⟩ => show win0_1.index t (3 : Fin 5) * 1 + 1 * 0 = 0; omega
  | ⟨4, _⟩ => show win0_1.index t (4 : Fin 5) * 512 + 1 * k.val = k.val; omega

/-- The staged query weight at a point of group g is the argument's weight for group g. -/
theorem w2_block (c : Dev nD) (t : Fin cfg0.N) (g : Fin 4) (hg : g.val = win0_8.index t (0 : Fin 4)) :
    wB (G := 1) (iblk (F := Ideal) m c 2 t) (0 : Fin 1) = wB (G := 4) (m ((c : Thread nD τ).loc main_arg2)) g := by
  obtain ⟨e0, e1, e2⟩ := index2 t
  funext k n
  show V m c main_v1 (((cfg0.win 2).blk t).view.emb (ix3 (0 : Fin 1) k n)) = m ((c : Thread nD τ).loc main_arg2) (ix3 g k n)
  refine (congrFun (narrowed1 m c) _).trans ?_
  congr 1
  funext a; apply Fin.ext
  match a with
  | ⟨0, _⟩ => show win0_2.index t (0 : Fin 3) * 1 + 1 * 0 = g.val; omega
  | ⟨1, _⟩ => show win0_2.index t (1 : Fin 3) * 768 + 1 * k.val = k.val; omega
  | ⟨2, _⟩ => show win0_2.index t (2 : Fin 3) * 768 + 1 * n.val = n.val; omega

/-- The staged key weight at a point of group g is the argument's weight for group g. -/
theorem w4_block (c : Dev nD) (t : Fin cfg0.N) (g : Fin 4) (hg : g.val = win0_8.index t (0 : Fin 4)) :
    wB (G := 1) (iblk (F := Ideal) m c 4 t) (0 : Fin 1) = wB (G := 4) (m ((c : Thread nD τ).loc main_arg4)) g := by
  obtain ⟨e0, e1, e2⟩ := index4 t
  funext k n
  show V m c main_v2 (((cfg0.win 4).blk t).view.emb (ix3 (0 : Fin 1) k n)) = m ((c : Thread nD τ).loc main_arg4) (ix3 g k n)
  refine (congrFun (narrowed2 m c) _).trans ?_
  congr 1
  funext a; apply Fin.ext
  match a with
  | ⟨0, _⟩ => show win0_4.index t (0 : Fin 3) * 1 + 1 * 0 = g.val; omega
  | ⟨1, _⟩ => show win0_4.index t (1 : Fin 3) * 768 + 1 * k.val = k.val; omega
  | ⟨2, _⟩ => show win0_4.index t (2 : Fin 3) * 768 + 1 * n.val = n.val; omega

/-- The staged value weight at a point of group g is the argument's weight for group g. -/
theorem w6_block (c : Dev nD) (t : Fin cfg0.N) (g : Fin 4) (hg : g.val = win0_8.index t (0 : Fin 4)) :
    wB (G := 1) (iblk (F := Ideal) m c 6 t) (0 : Fin 1) = wB (G := 4) (m ((c : Thread nD τ).loc main_arg6)) g := by
  obtain ⟨e0, e1, e2⟩ := index6 t
  funext k n
  show V m c main_v3 (((cfg0.win 6).blk t).view.emb (ix3 (0 : Fin 1) k n)) = m ((c : Thread nD τ).loc main_arg6) (ix3 g k n)
  refine (congrFun (narrowed3 m c) _).trans ?_
  congr 1
  funext a; apply Fin.ext
  match a with
  | ⟨0, _⟩ => show win0_6.index t (0 : Fin 3) * 1 + 1 * 0 = g.val; omega
  | ⟨1, _⟩ => show win0_6.index t (1 : Fin 3) * 768 + 1 * k.val = k.val; omega
  | ⟨2, _⟩ => show win0_6.index t (2 : Fin 3) * 768 + 1 * n.val = n.val; omega

/-- The staged query bias at a point of group g is the argument's bias for group g. -/
theorem b3_block (c : Dev nD) (t : Fin cfg0.N) (g : Fin 4) (hg : g.val = win0_8.index t (0 : Fin 4)) :
    bB (G := 1) (iblk (F := Ideal) m c 3 t) (0 : Fin 1) = bB (G := 4) (m ((c : Thread nD τ).loc main_arg3)) g := by
  obtain ⟨e0, e1, e2⟩ := index3 t
  funext n
  show V m c main_arg3 (((cfg0.win 3).blk t).view.emb (ix3 (0 : Fin 1) (0 : Fin 1) n)) = m ((c : Thread nD τ).loc main_arg3) (ix3 g (0 : Fin 1) n)
  refine (congrFun (V_main_arg3 m c) _).trans ?_
  congr 1
  funext a; apply Fin.ext
  match a with
  | ⟨0, _⟩ => show win0_3.index t (0 : Fin 3) * 1 + 1 * 0 = g.val; omega
  | ⟨1, _⟩ => show win0_3.index t (1 : Fin 3) * 1 + 1 * 0 = 0; omega
  | ⟨2, _⟩ => show win0_3.index t (2 : Fin 3) * 768 + 1 * n.val = n.val; omega

/-- The staged key bias at a point of group g is the argument's bias for group g. -/
theorem b5_block (c : Dev nD) (t : Fin cfg0.N) (g : Fin 4) (hg : g.val = win0_8.index t (0 : Fin 4)) :
    bB (G := 1) (iblk (F := Ideal) m c 5 t) (0 : Fin 1) = bB (G := 4) (m ((c : Thread nD τ).loc main_arg5)) g := by
  obtain ⟨e0, e1, e2⟩ := index5 t
  funext n
  show V m c main_arg5 (((cfg0.win 5).blk t).view.emb (ix3 (0 : Fin 1) (0 : Fin 1) n)) = m ((c : Thread nD τ).loc main_arg5) (ix3 g (0 : Fin 1) n)
  refine (congrFun (V_main_arg5 m c) _).trans ?_
  congr 1
  funext a; apply Fin.ext
  match a with
  | ⟨0, _⟩ => show win0_5.index t (0 : Fin 3) * 1 + 1 * 0 = g.val; omega
  | ⟨1, _⟩ => show win0_5.index t (1 : Fin 3) * 1 + 1 * 0 = 0; omega
  | ⟨2, _⟩ => show win0_5.index t (2 : Fin 3) * 768 + 1 * n.val = n.val; omega

/-- The staged value bias at a point of group g is the argument's bias for group g. -/
theorem b7_block (c : Dev nD) (t : Fin cfg0.N) (g : Fin 4) (hg : g.val = win0_8.index t (0 : Fin 4)) :
    bB (G := 1) (iblk (F := Ideal) m c 7 t) (0 : Fin 1) = bB (G := 4) (m ((c : Thread nD τ).loc main_arg7)) g := by
  obtain ⟨e0, e1, e2⟩ := index7 t
  funext n
  show V m c main_arg7 (((cfg0.win 7).blk t).view.emb (ix3 (0 : Fin 1) (0 : Fin 1) n)) = m ((c : Thread nD τ).loc main_arg7) (ix3 g (0 : Fin 1) n)
  refine (congrFun (V_main_arg7 m c) _).trans ?_
  congr 1
  funext a; apply Fin.ext
  match a with
  | ⟨0, _⟩ => show win0_7.index t (0 : Fin 3) * 1 + 1 * 0 = g.val; omega
  | ⟨1, _⟩ => show win0_7.index t (1 : Fin 3) * 1 + 1 * 0 = 0; omega
  | ⟨2, _⟩ => show win0_7.index t (2 : Fin 3) * 768 + 1 * n.val = n.val; omega

/-! ## What a grid point writes back -/

/-- Attention of equal blocks at equal positions is equal. -/
theorem attn_congr {hs hs' : Fin 512 → Fin 768 → EReal} {mask mask' : Fin 512 → EReal}
    {wq wq' : Fin 768 → Fin 768 → EReal} {bq bq' : Fin 768 → EReal} {wk wk' : Fin 768 → Fin 768 → EReal} {bk bk' : Fin 768 → EReal}
    {wv wv' : Fin 768 → Fin 768 → EReal} {bv bv' : Fin 768 → EReal} {l l' : Fin 512} {n n' : Fin 768}
    (h0 : hs = hs') (h1 : mask = mask') (h2 : wq = wq') (h3 : bq = bq') (h4 : wk = wk') (h5 : bk = bk') (h6 : wv = wv') (h7 : bv = bv')
    (hl : l = l') (hn : n = n') :
    attn hs mask wq bq wk bk wv bv l n = attn hs' mask' wq' bq' wk' bk' wv' bv' l' n' := by
  subst h0 h1 h2 h3 h4 h5 h6 h7 hl hn; rfl

/-- At row l, column n of its block, grid point t leaves the specification at the array index that position has:
    (g, b, l, n), with (g, b) the point's block index. -/
theorem written_at (c : Dev nD) (t : Fin cfg0.N) (j : S1x1x512x768.Idx) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) j
      = Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (((cfg0.win 8).blk t).view.emb j) := by
  obtain ⟨l, n, rfl⟩ : ∃ (l : Fin 512) (n : Fin 768), j = ix4 (0 : Fin 1) (0 : Fin 1) l n :=
    ⟨j 2, j 3, funext fun a => match a with
      | ⟨0, _⟩ => Subsingleton.elim (α := Fin 1) _ _
      | ⟨1, _⟩ => Subsingleton.elim (α := Fin 1) _ _
      | ⟨2, _⟩ => rfl
      | ⟨3, _⟩ => rfl⟩
  obtain ⟨b0, b1, z2, z3⟩ := index8 t
  refine (Pay.block_apply ..).trans ?_
  -- the array index of the block's position (0, 0, l, n)
  have hg : ((((cfg0.win 8).blk t).view.emb (ix4 (0 : Fin 1) (0 : Fin 1) l n)) 0 : Fin 4).val = win0_8.index t (0 : Fin 4) := by
    show win0_8.index t (0 : Fin 4) * 1 + 1 * 0 = _; omega
  have hb : ((((cfg0.win 8).blk t).view.emb (ix4 (0 : Fin 1) (0 : Fin 1) l n)) 1 : Fin 4).val = win0_8.index t (1 : Fin 4) := by
    show win0_8.index t (1 : Fin 4) * 1 + 1 * 0 = _; omega
  have hl : l = ((((cfg0.win 8).blk t).view.emb (ix4 (0 : Fin 1) (0 : Fin 1) l n)) 2 : Fin 512) :=
    Fin.ext (by show l.val = win0_8.index t (2 : Fin 4) * 512 + 1 * l.val; omega)
  have hn : n = ((((cfg0.win 8).blk t).view.emb (ix4 (0 : Fin 1) (0 : Fin 1) l n)) 3 : Fin 768) :=
    Fin.ext (by show n.val = win0_8.index t (3 : Fin 4) * 768 + 1 * n.val; omega)
  exact attn_congr (hs_block m c t _ _ hg hb) (mask_block m c t _ _ hg hb) (w2_block m c t _ hg) (b3_block m c t _ hg)
    (w4_block m c t _ hg) (b5_block m c t _ hg) (w6_block m c t _ hg) (b7_block m c t _ hg) hl hn

/-- What grid point t writes back is its block of the specification. -/
theorem flushed_eq (c : Dev nD) (t : Fin cfg0.N) :
    (dats (F := Ideal) m 0 c).flushed 8 t
      = ((cfg0.win 8).blk t).view.read (Elt Ideal) (Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (flushed8_A m c t).trans ?_
  funext j
  exact written_at m c t j

/-! ## The sixteen blocks cover the array -/

/-- An index is in point t's block iff on every axis it lies in the block's range. -/
theorem mem_block (t : Fin cfg0.N) (i : S4x4x512x768.Idx) :
    i ∈ ((cfg0.win 8).blk t).view.set ↔ ∀ a : Fin 4, win0_8.index t a * S1x1x512x768.size a ≤ (i a).val ∧ (i a).val < win0_8.index t a * S1x1x512x768.size a + S1x1x512x768.size a := by
  show i ∈ ((View.whole main_v4).slice (win0_8.rect t)).set ↔ _
  rw [View.set_slice_whole, Rect.mem_set_unit]
  exact Iff.rfl

/-- Index (g, b, l, n) is in the block of the point whose block index is (g, b, 0, 0). -/
theorem cover (i : S4x4x512x768.Idx) : ∃ t : Fin cfg0.N, (cfg0.win 8).flush t = true ∧ i ∈ ((cfg0.win 8).blk t).view.set := by
  have h0 : (i 0).val < 4 := (i 0).isLt
  have h1 : (i 1).val < 4 := (i 1).isLt
  have h2 : (i 2).val < 512 := (i 2).isLt
  have h3 : (i 3).val < 768 := (i 3).isLt
  obtain ⟨t, ht⟩ := index8_onto ⟨(i 0).val, h0⟩ ⟨(i 1).val, h1⟩
  have q0 : win0_8.index t (0 : Fin 4) = (i 0).val := congrFun ht 0
  have q1 : win0_8.index t (1 : Fin 4) = (i 1).val := congrFun ht 1
  have q2 : win0_8.index t (2 : Fin 4) = 0 := congrFun ht 2
  have q3 : win0_8.index t (3 : Fin 4) = 0 := congrFun ht 3
  refine ⟨t, flush0_8 t, ?_⟩
  rw [mem_block]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 1 ≤ (i 1).val ∧ (i 1).val < win0_8.index t (1 : Fin 4) * 1 + 1; omega
  | ⟨2, _⟩ => show win0_8.index t (2 : Fin 4) * 512 ≤ (i 2).val ∧ (i 2).val < win0_8.index t (2 : Fin 4) * 512 + 512; omega
  | ⟨3, _⟩ => show win0_8.index t (3 : Fin 4) * 768 ≤ (i 3).val ∧ (i 3).val < win0_8.index t (3 : Fin 4) * 768 + 768; omega

/-- After the run the result array is the specification of the argument arrays. -/
theorem final (c : Dev nD) :
    (dats (F := Ideal) m 0 c).arrAt 8 cfg0.N
      = Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats (F := Ideal) m 0 c).arrAt_eq_of_cover 8 _ (fun t _ => flushed_eq m c t) cover

/-- The kernel's run: every weakly fair execution ends with the result at the specification and the arguments unchanged. -/
theorem run : θ_run defs (onTc (τ := τ) (main (F := Ideal))) ⟨m, fun _ => 0, ρ⟩ fun r => ∀ c : Dev nD,
      r.2.mem ((c : Thread nD τ).loc main_v4) = Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.ArrValue

end
-- ==== Proof.RefProj.lean ====
/-
  The reference's three projections read at an index. The hidden states are flattened to 4 × 2048 × 768 (row b·512 + l),
  multiplied per group against a weight, the bias row added, and the result regrouped into heads
  (4, 4, 512, 12, 64) and transposed to (4, 4, 12, 512, 64). So entry (g, b, h, l, d) of each is
  Σ_c hs[g, b, l, c] · W[g, c, h·64+d] + bias[g, 0, h·64+d]: `Cert.Attn.proj` of the blocks at column `col h d`.
-/
import proofs.«412010_j55800215110214_3_alg».proof.Proof.Gen.ReferenceIdeal.Read
import proofs.«412010_j55800215110214_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

/-- Row `b·512 + l` of the hidden states flattened to 2048 rows per group. -/
def projRow (b : Fin 4) (l : Fin 512) : Fin 2048 := ⟨b.val * 512 + l.val, by have := b.isLt; have := l.isLt; omega⟩

/-- Undoing the transpose and the regrouping: entry (g, b, h, l, d) of the result sits at flat position
    (((g·4 + b)·512 + l)·12 + h)·64 + d, which in the (4, 2048, 768) array is group g, row b·512 + l, column h·64 + d. -/
theorem proj_regroup_v5 (g b : Fin 4) (h : Fin 12) (l : Fin 512) (d : Fin 64) :
    idx_main_v4 (idx_main_v5 (ix5 g b h l d)) = ix3 g (projRow b l) (col h d) := by
  have hg := g.isLt; have hb := b.isLt; have hh := h.isLt; have hl := l.isLt; have hd := d.isLt
  exact funext fun a => Fin.ext (by
    match a with
    | ⟨0, _⟩ => show ((((g.val * 4 + b.val) * 512 + l.val) * 12 + h.val) * 64 + d.val) / 1572864 = g.val; omega
    | ⟨1, _⟩ => show ((((g.val * 4 + b.val) * 512 + l.val) * 12 + h.val) * 64 + d.val) / 768 % 2048 = b.val * 512 + l.val; omega
    | ⟨2, _⟩ => show ((((g.val * 4 + b.val) * 512 + l.val) * 12 + h.val) * 64 + d.val) % 768 = h.val * 64 + d.val; omega)

/-- The left operand of the product at row b·512 + l and contraction index k is the hidden state (g, b, l, k):
    flat position (g·2048 + b·512 + l)·768 + k splits back into those four coordinates. -/
theorem proj_left_v1 (g b : Fin 4) (l : Fin 512) (n k : Fin 768) :
    idx_main_v0 (lidx_main_v1 (ix3 g (projRow b l) n) k) = ix4 g b l k := by
  have hg := g.isLt; have hb := b.isLt; have hl := l.isLt; have hk := k.isLt
  exact funext fun a => Fin.ext (by
    match a with
    | ⟨0, _⟩ => show ((g.val * 2048 + (b.val * 512 + l.val)) * 768 + k.val) / 1572864 = g.val; omega
    | ⟨1, _⟩ => show ((g.val * 2048 + (b.val * 512 + l.val)) * 768 + k.val) / 393216 % 4 = b.val; omega
    | ⟨2, _⟩ => show ((g.val * 2048 + (b.val * 512 + l.val)) * 768 + k.val) / 768 % 512 = l.val; omega
    | ⟨3, _⟩ => show ((g.val * 2048 + (b.val * 512 + l.val)) * 768 + k.val) % 768 = k.val; omega)

/-- The right operand at contraction index k and column n is the weight entry (g, k, n). -/
theorem proj_right_v1 (g : Fin 4) (r : Fin 2048) (n k : Fin 768) :
    ridx_main_v1 (ix3 g r n) k = ix3 g k n :=
  funext fun a => Fin.ext (by
    match a with
    | ⟨0, _⟩ => rfl
    | ⟨1, _⟩ => rfl
    | ⟨2, _⟩ => rfl)

/-- The broadcast bias at (g, r, n) is the bias entry (g, 0, n), whatever the row. -/
theorem proj_bias_v2 (g : Fin 4) (r : Fin 2048) (n : Fin 768) :
    idx_main_v2 (ix3 g r n) = ix3 g (0 : Fin 1) n :=
  funext fun a => Fin.ext (by
    match a with
    | ⟨0, _⟩ => rfl
    | ⟨1, _⟩ => rfl
    | ⟨2, _⟩ => rfl)

/-- The queries, regrouped by head, at (g, b, h, l, d). -/
theorem v5_apply (x0 : (⟨S4x4x512x768, .f32⟩ : BufTy).Contents (Elt Ideal)) (x2 : (⟨S4x768x768, .f32⟩ : BufTy).Contents (Elt Ideal)) (x3 : (⟨S4x1x768, .f32⟩ : BufTy).Contents (Elt Ideal))
    (g b : Fin 4) (h : Fin 12) (l : Fin 512) (d : Fin 64) :
    val_main_v5 (F := Ideal) x0 x2 x3 (ix5 g b h l d) = proj (hsB (G := 4) (B := 4) x0 g b) (wB (G := 4) x2 g) (bB (G := 4) x3 g) l (col h d) := by
  -- transpose, regrouping, sum, product and broadcast each read one index back; the composed index is (g, b·512 + l, h·64 + d)
  rw [val_main_v5_apply, val_main_v4_apply, val_main_v3_apply, val_main_v1_apply, val_main_v2_apply, proj_regroup_v5, proj_bias_v2]
  unfold proj
  -- term by term: the flattened hidden states at (g, b·512 + l, k) are hs[g, b, l, k], the weight is read at (g, k, h·64 + d)
  refine congrArg₂ _ (Finset.sum_congr rfl fun k _ => ?_) rfl
  rw [val_main_v0_apply, proj_left_v1, proj_right_v1]

/-- Undoing the transpose and the regrouping: entry (g, b, h, l, d) of the result sits at flat position
    (((g·4 + b)·512 + l)·12 + h)·64 + d, which in the (4, 2048, 768) array is group g, row b·512 + l, column h·64 + d. -/
theorem proj_regroup_v10 (g b : Fin 4) (h : Fin 12) (l : Fin 512) (d : Fin 64) :
    idx_main_v9 (idx_main_v10 (ix5 g b h l d)) = ix3 g (projRow b l) (col h d) := by
  have hg := g.isLt; have hb := b.isLt; have hh := h.isLt; have hl := l.isLt; have hd := d.isLt
  exact funext fun a => Fin.ext (by
    match a with
    | ⟨0, _⟩ => show ((((g.val * 4 + b.val) * 512 + l.val) * 12 + h.val) * 64 + d.val) / 1572864 = g.val; omega
    | ⟨1, _⟩ => show ((((g.val * 4 + b.val) * 512 + l.val) * 12 + h.val) * 64 + d.val) / 768 % 2048 = b.val * 512 + l.val; omega
    | ⟨2, _⟩ => show ((((g.val * 4 + b.val) * 512 + l.val) * 12 + h.val) * 64 + d.val) % 768 = h.val * 64 + d.val; omega)

/-- The left operand of the product at row b·512 + l and contraction index k is the hidden state (g, b, l, k):
    flat position (g·2048 + b·512 + l)·768 + k splits back into those four coordinates. -/
theorem proj_left_v6 (g b : Fin 4) (l : Fin 512) (n k : Fin 768) :
    idx_main_v0 (lidx_main_v6 (ix3 g (projRow b l) n) k) = ix4 g b l k := by
  have hg := g.isLt; have hb := b.isLt; have hl := l.isLt; have hk := k.isLt
  exact funext fun a => Fin.ext (by
    match a with
    | ⟨0, _⟩ => show ((g.val * 2048 + (b.val * 512 + l.val)) * 768 + k.val) / 1572864 = g.val; omega
    | ⟨1, _⟩ => show ((g.val * 2048 + (b.val * 512 + l.val)) * 768 + k.val) / 393216 % 4 = b.val; omega
    | ⟨2, _⟩ => show ((g.val * 2048 + (b.val * 512 + l.val)) * 768 + k.val) / 768 % 512 = l.val; omega
    | ⟨3, _⟩ => show ((g.val * 2048 + (b.val * 512 + l.val)) * 768 + k.val) % 768 = k.val; omega)

/-- The right operand at contraction index k and column n is the weight entry (g, k, n). -/
theorem proj_right_v6 (g : Fin 4) (r : Fin 2048) (n k : Fin 768) :
    ridx_main_v6 (ix3 g r n) k = ix3 g k n :=
  funext fun a => Fin.ext (by
    match a with
    | ⟨0, _⟩ => rfl
    | ⟨1, _⟩ => rfl
    | ⟨2, _⟩ => rfl)

/-- The broadcast bias at (g, r, n) is the bias entry (g, 0, n), whatever the row. -/
theorem proj_bias_v7 (g : Fin 4) (r : Fin 2048) (n : Fin 768) :
    idx_main_v7 (ix3 g r n) = ix3 g (0 : Fin 1) n :=
  funext fun a => Fin.ext (by
    match a with
    | ⟨0, _⟩ => rfl
    | ⟨1, _⟩ => rfl
    | ⟨2, _⟩ => rfl)

/-- The keys, likewise. -/
theorem v10_apply (x0 : (⟨S4x4x512x768, .f32⟩ : BufTy).Contents (Elt Ideal)) (x4 : (⟨S4x768x768, .f32⟩ : BufTy).Contents (Elt Ideal)) (x5 : (⟨S4x1x768, .f32⟩ : BufTy).Contents (Elt Ideal))
    (g b : Fin 4) (h : Fin 12) (l : Fin 512) (d : Fin 64) :
    val_main_v10 (F := Ideal) x0 x4 x5 (ix5 g b h l d) = proj (hsB (G := 4) (B := 4) x0 g b) (wB (G := 4) x4 g) (bB (G := 4) x5 g) l (col h d) := by
  -- transpose, regrouping, sum, product and broadcast each read one index back; the composed index is (g, b·512 + l, h·64 + d)
  rw [val_main_v10_apply, val_main_v9_apply, val_main_v8_apply, val_main_v6_apply, val_main_v7_apply, proj_regroup_v10, proj_bias_v7]
  unfold proj
  -- term by term: the flattened hidden states at (g, b·512 + l, k) are hs[g, b, l, k], the weight is read at (g, k, h·64 + d)
  refine congrArg₂ _ (Finset.sum_congr rfl fun k _ => ?_) rfl
  rw [val_main_v0_apply, proj_left_v6, proj_right_v6]

/-- Undoing the transpose and the regrouping: entry (g, b, h, l, d) of the result sits at flat position
    (((g·4 + b)·512 + l)·12 + h)·64 + d, which in the (4, 2048, 768) array is group g, row b·512 + l, column h·64 + d. -/
theorem proj_regroup_v15 (g b : Fin 4) (h : Fin 12) (l : Fin 512) (d : Fin 64) :
    idx_main_v14 (idx_main_v15 (ix5 g b h l d)) = ix3 g (projRow b l) (col h d) := by
  have hg := g.isLt; have hb := b.isLt; have hh := h.isLt; have hl := l.isLt; have hd := d.isLt
  exact funext fun a => Fin.ext (by
    match a with
    | ⟨0, _⟩ => show ((((g.val * 4 + b.val) * 512 + l.val) * 12 + h.val) * 64 + d.val) / 1572864 = g.val; omega
    | ⟨1, _⟩ => show ((((g.val * 4 + b.val) * 512 + l.val) * 12 + h.val) * 64 + d.val) / 768 % 2048 = b.val * 512 + l.val; omega
    | ⟨2, _⟩ => show ((((g.val * 4 + b.val) * 512 + l.val) * 12 + h.val) * 64 + d.val) % 768 = h.val * 64 + d.val; omega)

/-- The left operand of the product at row b·512 + l and contraction index k is the hidden state (g, b, l, k):
    flat position (g·2048 + b·512 + l)·768 + k splits back into those four coordinates. -/
theorem proj_left_v11 (g b : Fin 4) (l : Fin 512) (n k : Fin 768) :
    idx_main_v0 (lidx_main_v11 (ix3 g (projRow b l) n) k) = ix4 g b l k := by
  have hg := g.isLt; have hb := b.isLt; have hl := l.isLt; have hk := k.isLt
  exact funext fun a => Fin.ext (by
    match a with
    | ⟨0, _⟩ => show ((g.val * 2048 + (b.val * 512 + l.val)) * 768 + k.val) / 1572864 = g.val; omega
    | ⟨1, _⟩ => show ((g.val * 2048 + (b.val * 512 + l.val)) * 768 + k.val) / 393216 % 4 = b.val; omega
    | ⟨2, _⟩ => show ((g.val * 2048 + (b.val * 512 + l.val)) * 768 + k.val) / 768 % 512 = l.val; omega
    | ⟨3, _⟩ => show ((g.val * 2048 + (b.val * 512 + l.val)) * 768 + k.val) % 768 = k.val; omega)

/-- The right operand at contraction index k and column n is the weight entry (g, k, n). -/
theorem proj_right_v11 (g : Fin 4) (r : Fin 2048) (n k : Fin 768) :
    ridx_main_v11 (ix3 g r n) k = ix3 g k n :=
  funext fun a => Fin.ext (by
    match a with
    | ⟨0, _⟩ => rfl
    | ⟨1, _⟩ => rfl
    | ⟨2, _⟩ => rfl)

/-- The broadcast bias at (g, r, n) is the bias entry (g, 0, n), whatever the row. -/
theorem proj_bias_v12 (g : Fin 4) (r : Fin 2048) (n : Fin 768) :
    idx_main_v12 (ix3 g r n) = ix3 g (0 : Fin 1) n :=
  funext fun a => Fin.ext (by
    match a with
    | ⟨0, _⟩ => rfl
    | ⟨1, _⟩ => rfl
    | ⟨2, _⟩ => rfl)

/-- The values, likewise. -/
theorem v15_apply (x0 : (⟨S4x4x512x768, .f32⟩ : BufTy).Contents (Elt Ideal)) (x6 : (⟨S4x768x768, .f32⟩ : BufTy).Contents (Elt Ideal)) (x7 : (⟨S4x1x768, .f32⟩ : BufTy).Contents (Elt Ideal))
    (g b : Fin 4) (h : Fin 12) (l : Fin 512) (d : Fin 64) :
    val_main_v15 (F := Ideal) x0 x6 x7 (ix5 g b h l d) = proj (hsB (G := 4) (B := 4) x0 g b) (wB (G := 4) x6 g) (bB (G := 4) x7 g) l (col h d) := by
  -- transpose, regrouping, sum, product and broadcast each read one index back; the composed index is (g, b·512 + l, h·64 + d)
  rw [val_main_v15_apply, val_main_v14_apply, val_main_v13_apply, val_main_v11_apply, val_main_v12_apply, proj_regroup_v15, proj_bias_v12]
  unfold proj
  -- term by term: the flattened hidden states at (g, b·512 + l, k) are hs[g, b, l, k], the weight is read at (g, k, h·64 + d)
  refine congrArg₂ _ (Finset.sum_congr rfl fun k _ => ?_) rfl
  rw [val_main_v0_apply, proj_left_v11, proj_right_v11]

end Cert.ReferenceIdeal.RefValue

end
-- ==== Proof.RefSoft.lean ====
/-
  The reference's softmax numerators read at an index. Scores are the per-head product of queries and keys over the 64
  lanes, times 1/8, plus the mask row; each row's maximum is a fold of max from -∞ over the 512 keys (and the extra
  maximum with -∞ that follows changes nothing: the fold is already above its start value); the numerators are the
  exponentials of the scores less that maximum: `Cert.Attn.expo` of the row of `Cert.Attn.scoreW`.
-/
import proofs.«412010_j55800215110214_3_alg».proof.Proof.Gen.ReferenceIdeal.Read
import proofs.«412010_j55800215110214_3_alg».proof.Proof.Spec
import proofs.«412010_j55800215110214_3_alg».proof.Proof.RefProj
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

/-! ## Where each stage reads its operands

At (g, b, h, l, m) the score product reads the queries at (g, b, h, l, k) and the keys at (g, b, h, m, k); the mask is
read at (g, b, 0, 0, m); the row maximum, kept with a trailing unit axis, is read at (g, b, h, l, 0) and, before that
axis is added, at (g, b, h, l). -/

theorem lidx_v16 (g b : Fin 4) (h : Fin 12) (l m : Fin 512) (k : Fin 64) :
    lidx_main_v16 (ix5 g b h l m) k = ix5 g b h l k :=
  funext fun a => Fin.ext (by match a with | ⟨0, _⟩ => rfl | ⟨1, _⟩ => rfl | ⟨2, _⟩ => rfl | ⟨3, _⟩ => rfl | ⟨4, _⟩ => rfl)

theorem ridx_v16 (g b : Fin 4) (h : Fin 12) (l m : Fin 512) (k : Fin 64) :
    ridx_main_v16 (ix5 g b h l m) k = ix5 g b h m k :=
  funext fun a => Fin.ext (by match a with | ⟨0, _⟩ => rfl | ⟨1, _⟩ => rfl | ⟨2, _⟩ => rfl | ⟨3, _⟩ => rfl | ⟨4, _⟩ => rfl)

theorem idx_v19 (g b : Fin 4) (h : Fin 12) (l m : Fin 512) :
    idx_main_v19 (ix5 g b h l m) = ix5 g b (0 : Fin 1) (0 : Fin 1) m :=
  funext fun a => Fin.ext (by match a with | ⟨0, _⟩ => rfl | ⟨1, _⟩ => rfl | ⟨2, _⟩ => rfl | ⟨3, _⟩ => rfl | ⟨4, _⟩ => rfl)

theorem idx_v25 (g b : Fin 4) (h : Fin 12) (l m : Fin 512) :
    idx_main_v25 (ix5 g b h l m) = ix5 g b h l (0 : Fin 1) :=
  funext fun a => Fin.ext (by match a with | ⟨0, _⟩ => rfl | ⟨1, _⟩ => rfl | ⟨2, _⟩ => rfl | ⟨3, _⟩ => rfl | ⟨4, _⟩ => rfl)

theorem idx_v24 (g b : Fin 4) (h : Fin 12) (l : Fin 512) :
    idx_main_v24 (ix5 g b h l (0 : Fin 1)) = ix4 g b h l :=
  funext fun a => Fin.ext (by match a with | ⟨0, _⟩ => rfl | ⟨1, _⟩ => rfl | ⟨2, _⟩ => rfl | ⟨3, _⟩ => rfl)

/-- Putting key position m back on the reduced (last) axis of (g, b, h, l) gives (g, b, h, l, m). -/
theorem lift_v21 (hr : S4x4x12x512x512.Reduces [4] S4x4x12x512) (g b : Fin 4) (h : Fin 12) (l m : Fin 512) :
    hr.lift (ix4 g b h l) m = ix5 g b h l m :=
  funext fun a => Fin.ext (by match a with | ⟨0, _⟩ => rfl | ⟨1, _⟩ => rfl | ⟨2, _⟩ => rfl | ⟨3, _⟩ => rfl | ⟨4, _⟩ => rfl)

/-! ## The scores -/

/-- The score at (g, b, h, l, m): the 64-lane product of query row l and key row m of head h, times 1/8, plus the
    mask at m. Lane k of head h is column h·64 + k, which is the k-th lane of the head of column h·64. -/
theorem v20_apply (x0 : (⟨S4x4x512x768, .f32⟩ : BufTy).Contents (Elt Ideal)) (x1 : (⟨S4x4x1x1x512, .f32⟩ : BufTy).Contents (Elt Ideal)) (x2 : (⟨S4x768x768, .f32⟩ : BufTy).Contents (Elt Ideal)) (x3 : (⟨S4x1x768, .f32⟩ : BufTy).Contents (Elt Ideal))
    (x4 : (⟨S4x768x768, .f32⟩ : BufTy).Contents (Elt Ideal)) (x5 : (⟨S4x1x768, .f32⟩ : BufTy).Contents (Elt Ideal))
    (g b : Fin 4) (h : Fin 12) (l m : Fin 512) :
    val_main_v20 (F := Ideal) x0 x1 x2 x3 x4 x5 (ix5 g b h l m)
      = scoreW dvd768 (proj (hsB (G := 4) (B := 4) x0 g b) (wB (G := 4) x2 g) (bB (G := 4) x3 g)) (proj (hsB (G := 4) (B := 4) x0 g b) (wB (G := 4) x4 g) (bB (G := 4) x5 g)) (maskB (G := 4) (B := 4) x1 g b) (col h (0 : Fin 64)) l m := by
  rw [val_main_v20_apply, val_main_v18_apply, val_main_v16_apply, val_main_v17_apply, val_main_cst_apply, val_main_v19_apply]
  unfold scoreW
  simp only [Ideal.addf_def, Ideal.mulf_def, Ideal.ofBits_def, lidx_v16, ridx_v16, idx_v19, v5_apply, v10_apply, hcol_col]

/-! ## The row maximum -/

/-- The maximum over the last axis at (g, b, h, l) is the fold of max from -∞ over the 512 scores of that row. -/
theorem v21_apply (x0 : (⟨S4x4x512x768, .f32⟩ : BufTy).Contents (Elt Ideal)) (x1 : (⟨S4x4x1x1x512, .f32⟩ : BufTy).Contents (Elt Ideal)) (x2 : (⟨S4x768x768, .f32⟩ : BufTy).Contents (Elt Ideal)) (x3 : (⟨S4x1x768, .f32⟩ : BufTy).Contents (Elt Ideal))
    (x4 : (⟨S4x768x768, .f32⟩ : BufTy).Contents (Elt Ideal)) (x5 : (⟨S4x1x768, .f32⟩ : BufTy).Contents (Elt Ideal))
    (g b : Fin 4) (h : Fin 12) (l : Fin 512) :
    val_main_v21 (F := Ideal) x0 x1 x2 x3 x4 x5 (ix4 g b h l)
      = rowMax (scoreW dvd768 (proj (hsB (G := 4) (B := 4) x0 g b) (wB (G := 4) x2 g) (bB (G := 4) x3 g)) (proj (hsB (G := 4) (B := 4) x0 g b) (wB (G := 4) x4 g) (bB (G := 4) x5 g)) (maskB (G := 4) (B := 4) x1 g b) (col h (0 : Fin 64)) l) := by
  have hy := v20_apply x0 x1 x2 x3 x4 x5 g b h l
  unfold val_main_v21
  generalize val_main_v20 (F := Ideal) x0 x1 x2 x3 x4 x5 = y at hy ⊢
  have hr : S4x4x12x512x512.Reduces [4] S4x4x12x512 := by decide
  refine (Host.reduce_eq_fold_single (FloatOps.maximumf (F := Ideal) (φ := .f32)) y (val_main_cst_0 (F := Ideal))
    reducesTo_S4x4x12x512x512_S4x4x12x512_d4 hr h_S_ (ix4 g b h l)).trans ?_
  have e : y ∘ hr.lift (ix4 g b h l) = scoreW dvd768 (proj (hsB (G := 4) (B := 4) x0 g b) (wB (G := 4) x2 g) (bB (G := 4) x3 g)) (proj (hsB (G := 4) (B := 4) x0 g b) (wB (G := 4) x4 g) (bB (G := 4) x5 g)) (maskB (G := 4) (B := 4) x1 g b) (col h (0 : Fin 64)) l :=
    funext fun m => (congrArg y (lift_v21 hr g b h l m)).trans (hy m)
  unfold rowMax
  exact congrArg (fun f : Fin 512 → EReal => Finset.fold max negInf f Finset.univ) e

/-- The further maximum with -∞ changes nothing: the fold already starts from -∞. -/
theorem v23_apply (x0 : (⟨S4x4x512x768, .f32⟩ : BufTy).Contents (Elt Ideal)) (x1 : (⟨S4x4x1x1x512, .f32⟩ : BufTy).Contents (Elt Ideal)) (x2 : (⟨S4x768x768, .f32⟩ : BufTy).Contents (Elt Ideal)) (x3 : (⟨S4x1x768, .f32⟩ : BufTy).Contents (Elt Ideal))
    (x4 : (⟨S4x768x768, .f32⟩ : BufTy).Contents (Elt Ideal)) (x5 : (⟨S4x1x768, .f32⟩ : BufTy).Contents (Elt Ideal))
    (g b : Fin 4) (h : Fin 12) (l : Fin 512) :
    val_main_v23 (F := Ideal) x0 x1 x2 x3 x4 x5 (ix4 g b h l)
      = rowMax (scoreW dvd768 (proj (hsB (G := 4) (B := 4) x0 g b) (wB (G := 4) x2 g) (bB (G := 4) x3 g)) (proj (hsB (G := 4) (B := 4) x0 g b) (wB (G := 4) x4 g) (bB (G := 4) x5 g)) (maskB (G := 4) (B := 4) x1 g b) (col h (0 : Fin 64)) l) := by
  rw [val_main_v23_apply, val_main_v22_apply, val_main_cst_1_apply, v21_apply]
  exact max_negInf_rowMax _

/-! ## The shifted exponentials -/

/-- The shifted exponentials at (g, b, h, l, m). -/
theorem v27_apply (x0 : (⟨S4x4x512x768, .f32⟩ : BufTy).Contents (Elt Ideal)) (x1 : (⟨S4x4x1x1x512, .f32⟩ : BufTy).Contents (Elt Ideal)) (x2 : (⟨S4x768x768, .f32⟩ : BufTy).Contents (Elt Ideal)) (x3 : (⟨S4x1x768, .f32⟩ : BufTy).Contents (Elt Ideal))
    (x4 : (⟨S4x768x768, .f32⟩ : BufTy).Contents (Elt Ideal)) (x5 : (⟨S4x1x768, .f32⟩ : BufTy).Contents (Elt Ideal))
    (g b : Fin 4) (h : Fin 12) (l m : Fin 512) :
    val_main_v27 (F := Ideal) x0 x1 x2 x3 x4 x5 (ix5 g b h l m)
      = expo (scoreW dvd768 (proj (hsB (G := 4) (B := 4) x0 g b) (wB (G := 4) x2 g) (bB (G := 4) x3 g)) (proj (hsB (G := 4) (B := 4) x0 g b) (wB (G := 4) x4 g) (bB (G := 4) x5 g)) (maskB (G := 4) (B := 4) x1 g b) (col h (0 : Fin 64)) l) m := by
  rw [val_main_v27_apply, val_main_v26_apply, val_main_v25_apply, idx_v25, val_main_v24_apply, idx_v24, v23_apply, v20_apply]
  rfl

end Cert.ReferenceIdeal.RefValue

end
-- ==== Proof.RefValue.lean ====
/-
  The reference's result read at an index. The numerators' row sums start from zero, the probabilities are the numerators
  over their row sum, the context is their product against the values over the 512 keys, and the heads are laid back
  side by side: entry (g, b, l, n) is `Cert.Attn.outAt`, so the whole result is `Cert.Attn.out` of the arguments.
-/
import proofs.«412010_j55800215110214_3_alg».proof.Proof.Gen.ReferenceIdeal.Read
import proofs.«412010_j55800215110214_3_alg».proof.Proof.Spec
import proofs.«412010_j55800215110214_3_alg».proof.Proof.RefProj
import proofs.«412010_j55800215110214_3_alg».proof.Proof.RefSoft
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

/-! ## The index maps of the last stages, at coordinates

Each stage reads its operand at an index computed from the result's. At explicit coordinates these maps are coordinate
shuffles, except the final reshape, which splits column `h·64 + d` of a row of 768 into head `h` and lane `d`. -/

/-- Splitting the row-major position of (g, b, l, h·64 + d) in [4,4,512,768] along [4,4,512,12,64] gives (g, b, l, h, d):
    the position is (((g·4 + b)·512 + l)·12 + h)·64 + d, and every coordinate is below its extent. -/
theorem idx34_col (g b : Fin 4) (l : Fin 512) (h : Fin 12) (d : Fin 64) :
    idx_main_v34 (ix4 g b l (col h d)) = ix5 g b l h d := by
  have hg := g.isLt; have hb := b.isLt; have hl := l.isLt; have hh := h.isLt; have hd := d.isLt
  funext a
  apply Fin.ext
  match a with
  | ⟨0, _⟩ =>
    show (((g.val * 4 + b.val) * 512 + l.val) * 768 + (h.val * 64 + d.val)) / 1572864 = g.val
    omega
  | ⟨1, _⟩ =>
    show (((g.val * 4 + b.val) * 512 + l.val) * 768 + (h.val * 64 + d.val)) / 393216 % 4 = b.val
    omega
  | ⟨2, _⟩ =>
    show (((g.val * 4 + b.val) * 512 + l.val) * 768 + (h.val * 64 + d.val)) / 768 % 512 = l.val
    omega
  | ⟨3, _⟩ =>
    show (((g.val * 4 + b.val) * 512 + l.val) * 768 + (h.val * 64 + d.val)) / 64 % 12 = h.val
    omega
  | ⟨4, _⟩ =>
    show (((g.val * 4 + b.val) * 512 + l.val) * 768 + (h.val * 64 + d.val)) % 64 = d.val
    omega

/-- The transpose swaps the row and head coordinates. -/
theorem idx33_ix (g b : Fin 4) (l : Fin 512) (h : Fin 12) (d : Fin 64) :
    idx_main_v33 (ix5 g b l h d) = ix5 g b h l d :=
  funext fun a => Fin.ext (by match a with | ⟨0, _⟩ => rfl | ⟨1, _⟩ => rfl | ⟨2, _⟩ => rfl | ⟨3, _⟩ => rfl | ⟨4, _⟩ => rfl)

/-- The product's left operand is read at row `l`, key `k` of the same (g, b, h). -/
theorem lidx32_ix (g b : Fin 4) (h : Fin 12) (l : Fin 512) (d : Fin 64) (k : Fin 512) :
    lidx_main_v32 (ix5 g b h l d) k = ix5 g b h l k :=
  funext fun a => Fin.ext (by match a with | ⟨0, _⟩ => rfl | ⟨1, _⟩ => rfl | ⟨2, _⟩ => rfl | ⟨3, _⟩ => rfl | ⟨4, _⟩ => rfl)

/-- The product's right operand is read at key `k`, lane `d` of the same (g, b, h). -/
theorem ridx32_ix (g b : Fin 4) (h : Fin 12) (l : Fin 512) (d : Fin 64) (k : Fin 512) :
    ridx_main_v32 (ix5 g b h l d) k = ix5 g b h k d :=
  funext fun a => Fin.ext (by match a with | ⟨0, _⟩ => rfl | ⟨1, _⟩ => rfl | ⟨2, _⟩ => rfl | ⟨3, _⟩ => rfl | ⟨4, _⟩ => rfl)

/-- The row sum is spread along the keys: every key of row `l` reads the single entry of the kept axis. -/
theorem idx30_ix (g b : Fin 4) (h : Fin 12) (l k : Fin 512) :
    idx_main_v30 (ix5 g b h l k) = ix5 g b h l (0 : Fin 1) :=
  funext fun a => Fin.ext (by match a with | ⟨0, _⟩ => rfl | ⟨1, _⟩ => rfl | ⟨2, _⟩ => rfl | ⟨3, _⟩ => rfl | ⟨4, _⟩ => rfl)

/-- The kept axis of extent one is dropped. -/
theorem idx29_ix (g b : Fin 4) (h : Fin 12) (l : Fin 512) :
    idx_main_v29 (ix5 g b h l (0 : Fin 1)) = ix4 g b h l :=
  funext fun a => Fin.ext (by match a with | ⟨0, _⟩ => rfl | ⟨1, _⟩ => rfl | ⟨2, _⟩ => rfl | ⟨3, _⟩ => rfl)

/-- The row sum runs over the keys of row `l`. -/
theorem idx28_ix (g b : Fin 4) (h : Fin 12) (l k : Fin 512) :
    idx_main_v28 (ix4 g b h l) k = ix5 g b h l k :=
  funext fun a => Fin.ext (by match a with | ⟨0, _⟩ => rfl | ⟨1, _⟩ => rfl | ⟨2, _⟩ => rfl | ⟨3, _⟩ => rfl | ⟨4, _⟩ => rfl)

/-- The numerators' row sum starts from the zero word, which is 0: it is the plain sum of the row's shifted exponentials. -/
theorem v28_apply (x0 : (⟨S4x4x512x768, .f32⟩ : BufTy).Contents (Elt Ideal)) (x1 : (⟨S4x4x1x1x512, .f32⟩ : BufTy).Contents (Elt Ideal)) (x2 : (⟨S4x768x768, .f32⟩ : BufTy).Contents (Elt Ideal)) (x3 : (⟨S4x1x768, .f32⟩ : BufTy).Contents (Elt Ideal))
    (x4 : (⟨S4x768x768, .f32⟩ : BufTy).Contents (Elt Ideal)) (x5 : (⟨S4x1x768, .f32⟩ : BufTy).Contents (Elt Ideal))
    (g b : Fin 4) (h : Fin 12) (l : Fin 512) :
    val_main_v28 (F := Ideal) x0 x1 x2 x3 x4 x5 (ix4 g b h l)
      = ∑ m : Fin 512, expo (scoreW dvd768 (proj (hsB (G := 4) (B := 4) x0 g b) (wB (G := 4) x2 g) (bB (G := 4) x3 g)) (proj (hsB (G := 4) (B := 4) x0 g b) (wB (G := 4) x4 g) (bB (G := 4) x5 g)) (maskB (G := 4) (B := 4) x1 g b) (col h (0 : Fin 64)) l) m := by
  rw [val_main_v28_apply, val_main_cst_2_apply]
  show Ideal.ofBits .f32 0x00000000#32 + _ = _
  rw [Ideal.ofBits_zero_f32, zero_add]
  refine Finset.sum_congr rfl fun k _ => ?_
  rw [idx28_ix, v27_apply]

/-- All lanes of head `h` share the head's scores. -/
theorem scoreW_col (q k : Fin 512 → Fin 768 → EReal) (mask : Fin 512 → EReal) (h : Fin 12) (d : Fin 64) :
    scoreW dvd768 q k mask (col h d) = scoreW dvd768 q k mask (col h (0 : Fin 64)) :=
  scoreW_congr dvd768 q k mask (col h d) (col h (0 : Fin 64))
    (by show (h.val * 64 + d.val) / 64 = (h.val * 64 + 0) / 64; have := d.isLt; omega)

/-- The reference's result at (g, b, l, n). -/
theorem ref_apply (x0 : (⟨S4x4x512x768, .f32⟩ : BufTy).Contents (Elt Ideal)) (x1 : (⟨S4x4x1x1x512, .f32⟩ : BufTy).Contents (Elt Ideal)) (x2 : (⟨S4x768x768, .f32⟩ : BufTy).Contents (Elt Ideal)) (x3 : (⟨S4x1x768, .f32⟩ : BufTy).Contents (Elt Ideal))
    (x4 : (⟨S4x768x768, .f32⟩ : BufTy).Contents (Elt Ideal)) (x5 : (⟨S4x1x768, .f32⟩ : BufTy).Contents (Elt Ideal)) (x6 : (⟨S4x768x768, .f32⟩ : BufTy).Contents (Elt Ideal)) (x7 : (⟨S4x1x768, .f32⟩ : BufTy).Contents (Elt Ideal))
    (g b : Fin 4) (l : Fin 512) (n : Fin 768) :
    val_main_v34 (F := Ideal) x0 x1 x2 x3 x4 x5 x6 x7 (ix4 g b l n) = outAt x0 x1 x2 x3 x4 x5 x6 x7 g b l n := by
  -- Column n is lane d of head h = n / 64.
  obtain ⟨h, d, rfl⟩ : ∃ (h : Fin 12) (d : Fin 64), n = col h d := ⟨_, _, eq_col n⟩
  -- Entry (g, b, l, h·64 + d) of the result is entry (g, b, h, l, d) of the product over the 512 keys …
  rw [val_main_v34_apply, idx34_col, val_main_v33_apply, idx33_ix, val_main_v32_apply]
  unfold outAt attn ctxW
  -- … and both sides are sums over the keys m; compare them key by key.
  refine Finset.sum_congr rfl fun m _ => ?_
  -- The left factor is head h's shifted exponential at (l, m) over its row sum, the right factor is the value
  -- projection at (m, h·64 + d); the scores of column h·64 + d are those of its head.
  rw [lidx32_ix, ridx32_ix, v15_apply, val_main_v31_apply, val_main_v30_apply, idx30_ix, val_main_v29_apply, idx29_ix,
    v28_apply, v27_apply, scoreW_col _ _ _ h d]
  rfl

/-- … so the reference's result is the specification, as arrays. -/
theorem ref_eq (x0 : (⟨S4x4x512x768, .f32⟩ : BufTy).Contents (Elt Ideal)) (x1 : (⟨S4x4x1x1x512, .f32⟩ : BufTy).Contents (Elt Ideal)) (x2 : (⟨S4x768x768, .f32⟩ : BufTy).Contents (Elt Ideal)) (x3 : (⟨S4x1x768, .f32⟩ : BufTy).Contents (Elt Ideal))
    (x4 : (⟨S4x768x768, .f32⟩ : BufTy).Contents (Elt Ideal)) (x5 : (⟨S4x1x768, .f32⟩ : BufTy).Contents (Elt Ideal)) (x6 : (⟨S4x768x768, .f32⟩ : BufTy).Contents (Elt Ideal)) (x7 : (⟨S4x1x768, .f32⟩ : BufTy).Contents (Elt Ideal)) :
    val_main_v34 (F := Ideal) x0 x1 x2 x3 x4 x5 x6 x7 = Attn.out x0 x1 x2 x3 x4 x5 x6 x7 := by
  funext i
  obtain ⟨g, b, l, n, rfl⟩ : ∃ (g b : Fin 4) (l : Fin 512) (n : Fin 768), i = ix4 g b l n := ⟨i 0, i 1, i 2, i 3, eq_ix4 i⟩
  rw [ref_apply, out_apply]

end Cert.ReferenceIdeal.RefValue

end
-- ==== Proof.lean ====
/-
  Multi-head self-attention, fused in one kernel, against its plain reference, over the extended reals.

  Both programs compute, for every group g, batch b, row l and column n (head h = n / 64):
      out[g, b, l, n] = Σ_m softmax_m( (Σ_{d<64} q[l, h·64+d] · k[m, h·64+d]) / 8 + mask[g, b, m] ) · v[m, n],
      q, k, v = hs[g, b] · W[g] + bias[g],
  with the softmax taken as exp (s − max s) / Σ exp (s − max s) on both sides. `Cert.Attn.out` (Proof/Spec.lean) is that
  function of the eight argument arrays. The two programs differ only in what does not change an extended real: the
  kernel narrows operands to bf16 (the identity here), accumulates its matrix products into a zero block, works one
  (g, b) block per grid point and two heads at a time, and keeps q, k, v in scratch; the reference flattens the batch into
  the rows, regroups by head with reshapes and transposes, starts its row sums from zero and takes one more maximum
  with -∞. No step uses a law that fails at an infinity, so the precondition is never opened.

  The kernel's result array is `Cert.Attn.out` of its arguments (Proof/KArray.lean, over the generated frame run), the
  reference's is too (Proof/RefValue.lean, over its generated run), and the arguments agree.
-/
import proofs.«412010_j55800215110214_3_alg».proof.Defs
import proofs.«412010_j55800215110214_3_alg».proof.Proof.Gen.Kernel
import proofs.«412010_j55800215110214_3_alg».proof.Proof.Gen.Kernel.Skeleton
import proofs.«412010_j55800215110214_3_alg».proof.Proof.Gen.Kernel.Loops
import proofs.«412010_j55800215110214_3_alg».proof.Proof.Gen.Kernel.Launch
import proofs.«412010_j55800215110214_3_alg».proof.Proof.Gen.Kernel.Points
import proofs.«412010_j55800215110214_3_alg».proof.Proof.Gen.Kernel.Frame
import proofs.«412010_j55800215110214_3_alg».proof.Proof.Gen.KernelIdeal
import proofs.«412010_j55800215110214_3_alg».proof.Proof.Gen.KernelIdeal.Skeleton
import proofs.«412010_j55800215110214_3_alg».proof.Proof.Gen.KernelIdeal.Loops
import proofs.«412010_j55800215110214_3_alg».proof.Proof.Gen.KernelIdeal.Launch
import proofs.«412010_j55800215110214_3_alg».proof.Proof.Gen.KernelIdeal.Points
import proofs.«412010_j55800215110214_3_alg».proof.Proof.Gen.KernelIdeal.Frame
import proofs.«412010_j55800215110214_3_alg».proof.Proof.Gen.ReferenceIdeal
import proofs.«412010_j55800215110214_3_alg».proof.Proof.Gen.Pre_finite_inputs
import proofs.«412010_j55800215110214_3_alg».proof.Proof.Gen.KernelIdeal.Value
import proofs.«412010_j55800215110214_3_alg».proof.Proof.Gen.ReferenceIdeal.Run
import proofs.«412010_j55800215110214_3_alg».proof.Proof.Gen.ReferenceIdeal.Read
import Idealize.ShloMosaic.Adequacy
import Idealize.ShloMosaic.Init
import proofs.«412010_j55800215110214_3_alg».proof.Proof.KArray
import proofs.«412010_j55800215110214_3_alg».proof.Proof.RefValue

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at `Cert.Attn.out` of those arguments. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
